-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S128x128 : Shape := ⟨2, ![128, 128]⟩
abbrev S128 : Shape := ⟨1, ![128]⟩
abbrev S500000x128 : Shape := ⟨2, ![500000, 128]⟩
abbrev S100000x1 : Shape := ⟨2, ![100000, 1]⟩
abbrev S800000 : Shape := ⟨1, ![800000]⟩
abbrev S100000 : Shape := ⟨1, ![100000]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000x128 : S_.BroadcastsInDim S500000x128 (![] : Fin 0 → Fin S500000x128.rank)
  reducesTo_S500000x128_S_d0_1 : S500000x128.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_arg4 : FVec F S128 .f32) (main_arg5 : FVec F S500000x128 .f32) (main_arg6 : FVec F S100000x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S500000x128 .f32 := Host.absf main_arg5
  let main_cst_8 : FVec F S_ .f32 := constant S_ .f32 0x7F800000#32
  let main_v25 : FVec F S500000x128 .f32 := broadcastInDim S500000x128 ![] bcast_S_S500000x128 main_cst_8
  let main_v26 : IVec S500000x128 1 := cmpf .olt main_v24 main_v25
  let main_c_9 : IVec S_ 1 := constantI S_ 1 1#1
  let main_v27 : IVec S_ 1 := (fun x v => Host.reduce IntOp.andi x v reducesTo_S500000x128_S_d0_1 h_S_) main_v26 main_c_9
  let main_v28 : IVec S_ 1 := andi main_v23 main_v27
  let main_v29 : FVec F S100000x1 .f32 := Host.absf main_arg6
  let main_cst_10 : FVec F S_ .f32 := constant S_ .f32 0x7F800000#32
  let main_v30 : FVec F S100000x1 .f32 := broadcastInDim S100000x1 ![] bcast_S_S100000x1 main_cst_10
  let main_v31 : IVec S100000x1 1 := cmpf .olt main_v29 main_v30
  let main_c_11 : IVec S_ 1 := constantI S_ 1 1#1
  let main_v32 : IVec S_ 1 := (fun x v => Host.reduce IntOp.andi x v reducesTo_S100000x1_S_d0_1 h_S_) main_v31 main_c_11
  let main_v33 : IVec S_ 1 := andi main_v28 main_v32
  main_v33

def fn {F : FTy → Type} [FloatOps F] (main_arg0 : FVec F S800000x128 .f32) (main_arg1 : FVec F S128x128 .f32) (main_arg2 : FVec F S128 .f32) (main_arg3 : FVec F S128x128 .f32) (main_arg4 : FVec F S128 .f32) (main_arg5 : FVec F S500000x128 .f32) (main_arg6 : FVec F S100000x1 .f32) (main_arg7 : IVec S800000 32) (main_arg8 : IVec S100000 32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S800000x128 : Shape := ⟨2, ![800000, 128]⟩
abbrev S128x128 : Shape := ⟨2, ![128, 128]⟩
abbrev S128 : Shape := ⟨1, ![128]⟩
abbrev S500000x128 : Shape := ⟨2, ![500000, 128]⟩
abbrev S100000x1 : Shape := ⟨2, ![100000, 1]⟩
abbrev S800000 : Shape := ⟨1, ![800000]⟩
abbrev S100000 : Shape := ⟨1, ![100000]⟩
abbrev S_ : Shape := ⟨0, ![]⟩
abbrev S100000x128 : Shape := ⟨2, ![100000, 128]⟩
abbrev S800000x1 : Shape := ⟨2, ![800000, 1]⟩
abbrev S1x256 : Shape := ⟨2, ![1, 256]⟩
abbrev S2000x128 : Shape := ⟨2, ![2000, 128]⟩
abbrev S2000x1 : Shape := ⟨2, ![2000, 1]⟩
abbrev S1x128 : Shape := ⟨2, ![1, 128]⟩
abbrev S1x1 : Shape := ⟨2, ![1, 1]⟩
abbrev S2000 : Shape := ⟨1, ![2000]⟩
abbrev S1 : Shape := ⟨1, ![1]⟩
abbrev S2x128 : Shape := ⟨2, ![2, 128]⟩
abbrev S2x1 : Shape := ⟨2, ![2, 1]⟩
abbrev S2 : Shape := ⟨1, ![2]⟩

abbrev nBuf : Space → Nat
  | .hbm => 39
  | .vmem => 15
  | .smem => 0
  | _ => 0

abbrev bufTy : (tb : Table) → Fin (tcTables nBuf tb) → BufTy
  | .hbm, ⟨0, _⟩ => ⟨S800000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S500000x128, .f32⟩
  | .hbm, ⟨6, _⟩ => ⟨S100000x1, .f32⟩
  | .hbm, ⟨7, _⟩ => ⟨S800000, .i32⟩
  | .hbm, ⟨8, _⟩ => ⟨S100000, .i32⟩
  | .hbm, ⟨9, _⟩ => ⟨S_, .f32⟩
  | .hbm, ⟨10, _⟩ => ⟨S100000x128, .f32⟩
  | .hbm, ⟨11, _⟩ => ⟨S800000x1, .i32⟩
  | .hbm, ⟨12, _⟩ => ⟨S100000x128, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S100000, .f32⟩
  | .hbm, ⟨17, _⟩ => ⟨S800000x1, .i32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S100000x128, .f32⟩
  | .hbm, ⟨29, _⟩ => ⟨S128x128, .f32⟩
  | .hbm, ⟨30, _⟩ => ⟨S128x128, .f32⟩
  | .hbm, ⟨31, _⟩ => ⟨S1x256, .f32⟩
  | .hbm, ⟨32, _⟩ => ⟨S2x128, .f32⟩
  | .hbm, ⟨33, _⟩ => ⟨S2x1, .f32⟩
  | .hbm, ⟨34, _⟩ => ⟨S2, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S1x128, .f32⟩
  | .local _ .vmem, ⟨13, _⟩ => ⟨S1x128, .f32⟩
  | .local _ .vmem, ⟨14, _⟩ => ⟨S1x1, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v53 : BitVec 1 := Scalar.cmpi .eq arg1 c24_i32
  let v54 : BitVec 32 := Scalar.extui v53
  let c0_i32_24 : BitVec 32 := 0#32
  let v55 : BitVec 1 := Scalar.cmpi .ne v54 c0_i32_24
  v55

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S100000x128 : S_.BroadcastsInDim S100000x128 (![] : Fin 0 → Fin S100000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S100000 : S_.BroadcastsInDim S100000 (![] : Fin 0 → Fin S100000.rank)
  bcast_S100000_S100000x1_0 : S100000.BroadcastsInDim S100000x1 (![0] : Fin 1 → Fin S100000x1.rank)
  transposes_S128x128_S128x128_1_0 : S128x128.Transposes [1, 0] S128x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  reduces_S2000x1_S1 : S2000x1.Reduces [0] S1
  shapeCasts_S1_S1x1 : S1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  shapeCasts_S1x256_S2x128 : S1x256.ShapeCasts S2x128
  slices_S2x128_S2x1_0_0 : S2x128.Slices ![0, 0] S2x1
  shapeCasts_S2x1_S2 : S2x1.ShapeCasts S2
  reducesTo_S2_S_d0 : S2.ReducesTo [0] S_
  h_S_ : 0 < S_.numel
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S500000x128_S100000x1_S100000x128_1_0_n_n_0_1_1128_wf : GatherDims.WF S500000x128 S100000x1 S100000x128 [1] [0] [] [0] [] 1 ![1, 128]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S100000x1.size a
  hwx0_7 : ∀ i : grid0.Coords, EltTy.bits .f32 = 32 ∨ (Rect.block (s := S100000x1) S2000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x256.size a
  hwx0_8 : ∀ i : grid0.Coords, EltTy.bits .f32 = 32 ∨ (Rect.block (s := S1x256) S1x128.size (cc0_transform_8 i) (hinb0_8 i)).WholeWords (EltTy.packing .f32)

variable [Facts₀]

def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S500000x128_S100000x1_S100000x128_1_0_n_n_0_1_1128 : GatherDims S500000x128 S100000x1 S100000x128 where
  offsetDims := [1]
  collapsedSliceDims := [0]
  operandBatchingDims := []
  startIndicesBatchingDims := []
  startIndexMap := [0]
  indexVectorDim := 1
  sliceSizes := ![1, 128]
  wf := gather_S500000x128_S100000x1_S100000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v2) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S2000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S800000x128 : Shape := ⟨2, ![800000, 128]⟩
abbrev S128x128 : Shape := ⟨2, ![128, 128]⟩
abbrev S128 : Shape := ⟨1, ![128]⟩
abbrev S500000x128 : Shape := ⟨2, ![500000, 128]⟩
abbrev S100000x1 : Shape := ⟨2, ![100000, 1]⟩
abbrev S800000 : Shape := ⟨1, ![800000]⟩
abbrev S100000 : Shape := ⟨1, ![100000]⟩
abbrev S1x128 : Shape := ⟨2, ![1, 128]⟩
abbrev S_ : Shape := ⟨0, ![]⟩
abbrev S100000x128 : Shape := ⟨2, ![100000, 128]⟩
abbrev S800000x1 : Shape := ⟨2, ![800000, 1]⟩

abbrev nBuf : Space → Nat
  | .hbm => 53
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S500000x128, .f32⟩
  | .hbm, ⟨6, _⟩ => ⟨S100000x1, .f32⟩
  | .hbm, ⟨7, _⟩ => ⟨S800000, .i32⟩
  | .hbm, ⟨8, _⟩ => ⟨S100000, .i32⟩
  | .hbm, ⟨9, _⟩ => ⟨S128x128, .f32⟩
  | .hbm, ⟨10, _⟩ => ⟨S800000x128, .f32⟩
  | .hbm, ⟨11, _⟩ => ⟨S1x128, .f32⟩
  | .hbm, ⟨12, _⟩ => ⟨S800000x128, .f32⟩
  | .hbm, ⟨13, _⟩ => ⟨S800000x128, .f32⟩
  | .hbm, ⟨14, _⟩ => ⟨S800000x128, .f32⟩
  | .hbm, ⟨15, _⟩ => ⟨S_, .f32⟩
  | .hbm, ⟨16, _⟩ => ⟨S100000x128, .f32⟩
  | .hbm, ⟨17, _⟩ => ⟨S800000x1, .i32⟩
  | .hbm, ⟨18, _⟩ => ⟨S100000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S100000, .f32⟩
  | .hbm, ⟨23, _⟩ => ⟨S800000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S100000, .i32⟩
  | .hbm, ⟨38, _⟩ => ⟨S100000, .i1⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000, .i32⟩
  | .hbm, ⟨43, _⟩ => ⟨S100000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S100000x128 : S_.BroadcastsInDim S100000x128 (![] : Fin 0 → Fin S100000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reducesTo_S100000x128_S_d0_1 : S100000x128.ReducesTo [0, 1] S_
  h_S_ : 0 < S_.numel
  dot_S800000x128_S128x128_S800000x128_1_0_0_1_n_n_wf : DotDims.WF S800000x128 S128x128 S800000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S500000x128_S100000x1_S100000x128_1_0_n_n_0_1_1128_wf : GatherDims.WF S500000x128 S100000x1 S100000x128 [1] [0] [] [0] [] 1 ![1, 128]

variable [Facts₀]

def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S500000x128_S100000x1_S100000x128_1_0_n_n_0_1_1128 : GatherDims S500000x128 S100000x1 S100000x128 where
  offsetDims := [1]
  collapsedSliceDims := [0]
  operandBatchingDims := []
  startIndicesBatchingDims := []
  startIndexMap := [0]
  indexVectorDim := 1
  sliceSizes := ![1, 128]
  wf := gather_S500000x128_S100000x1_S100000x128_1_0_n_n_0_1_1128_wf

class Facts : Prop extends Facts₀ where

variable [Facts]
-- ==== Proof.Pieces.lean ====
/-
  What each control case of the kernel body leaves behind, as values. The body keeps a 1×1 accumulator: at the first
  tile of a core it stores zero and then adds the tile's weighted sum; at the other tiles it adds to what the tile
  before left; at a core's last tile it also stores the accumulator, broadcast over 128 lanes, into the output block.
  Each case's stores cover their buffers whole, so what is left is the stored payload itself.
-/
import proofs.«405659_j58514634441035_3_alg».proof.Proof.Gen.KernelIdeal.Frame
import Idealize.ShloMosaic.Lib.Pipeline.Value
import Idealize.ShloMosaic.Lib.Tactic

set_option maxRecDepth 16384

noncomputable section

namespace Cert.KernelIdeal.PoolValue

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The tile's projected contexts: the first stretch of the body's arithmetic, of the six blocks it loads. -/
abbrev tilePred (x0 : Vec F S2000x128 .f32) (x1 : Vec F S2000x1 .f32) (x2 : Vec F S128x128 .f32) (x3 : Vec F S128 .f32)
    (x4 : Vec F S128x128 .f32) (x5 : Vec F S128 .f32) : FVec F S2000x128 .f32 := k0_pay4 x1 x0 x2 x3 x4 x5

/-- First tile of a core: the accumulator ends at the reset value plus the tile's weighted sum. -/
theorem scrA (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2000x128 .f32) (harg8 : arg8.IsWhole) (arg9 : Memref sig .tc .vmem S2000x1 .f32) (harg9 : arg9.IsWhole) (arg10 : Memref sig .tc .vmem S1x128 .f32) (harg10 : arg10.IsWhole) (arg11 : Memref sig .tc .vmem S1x1 .f32) (harg11 : arg11.IsWhole) (hc0 : cond0_0 i) (hc1 : ¬cond0_1 i) (x0 : Vec F S2000x128 .f32) (x1 : Vec F S2000x1 .f32) (x2 : Vec F S128x128 .f32) (x3 : Vec F S128 .f32) (x4 : Vec F S128x128 .f32) (x5 : Vec F S128 .f32) (x6 : Vec F S2000x128 .f32) (x7 : Vec F S2000x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay1 (tilePred x0 x1 x2 x3 x4 x5) x6 x7 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    harg6.read_unread, harg7.read_unread, harg8.read_unread, harg9.read_unread,
    View.ld_unit_zero (S := S2000x128) hz2, View.ld_unit_zero (S := S2000x1) hz2, View.ld_unit_zero (S := S128x128) hz2,
    View.ld_unit_zero (S := S128) hz1]

/-- A middle tile: the accumulator ends at what the tile before left plus the tile's weighted sum. -/
theorem scrB (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2000x128 .f32) (harg8 : arg8.IsWhole) (arg9 : Memref sig .tc .vmem S2000x1 .f32) (harg9 : arg9.IsWhole) (arg10 : Memref sig .tc .vmem S1x128 .f32) (harg10 : arg10.IsWhole) (arg11 : Memref sig .tc .vmem S1x1 .f32) (harg11 : arg11.IsWhole) (hc0 : ¬cond0_0 i) (hc1 : ¬cond0_1 i) (x0 : Vec F S2000x128 .f32) (x1 : Vec F S2000x1 .f32) (x2 : Vec F S128x128 .f32) (x3 : Vec F S128 .f32) (x4 : Vec F S128x128 .f32) (x5 : Vec F S128 .f32) (x6 : Vec F S2000x128 .f32) (x7 : Vec F S2000x1 .f32) (xs0 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (tilePred x0 x1 x2 x3 x4 x5) x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero (S := S1x1) hz2]
  simp only [View.readAt_eq_ld, harg2.read_unread, harg3.read_unread, harg4.read_unread, harg5.read_unread,
    harg6.read_unread, harg7.read_unread, harg8.read_unread, harg9.read_unread, harg11.read_unread,
    View.ld_unit_zero (S := S2000x128) hz2, View.ld_unit_zero (S := S2000x1) hz2, View.ld_unit_zero (S := S128x128) hz2,
    View.ld_unit_zero (S := S128) hz1, View.ld_unit_zero (S := S1x1) hz2]

/-- A core's last tile: the accumulator as at a middle tile, -/
theorem scrC (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2000x128 .f32) (harg8 : arg8.IsWhole) (arg9 : Memref sig .tc .vmem S2000x1 .f32) (harg9 : arg9.IsWhole) (arg10 : Memref sig .tc .vmem S1x128 .f32) (harg10 : arg10.IsWhole) (arg11 : Memref sig .tc .vmem S1x1 .f32) (harg11 : arg11.IsWhole) (hc0 : ¬cond0_0 i) (hc1 : cond0_1 i) (x0 : Vec F S2000x128 .f32) (x1 : Vec F S2000x1 .f32) (x2 : Vec F S128x128 .f32) (x3 : Vec F S128 .f32) (x4 : Vec F S128x128 .f32) (x5 : Vec F S128 .f32) (x6 : Vec F S2000x128 .f32) (x7 : Vec F S2000x1 .f32) (xs0 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (tilePred x0 x1 x2 x3 x4 x5) x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero (S := S1x1) hz2]
  simp only [View.readAt_eq_ld, harg2.read_unread, harg3.read_unread, harg4.read_unread, harg5.read_unread,
    harg6.read_unread, harg7.read_unread, harg8.read_unread, harg9.read_unread, harg11.read_unread,
    View.ld_unit_zero (S := S2000x128) hz2, View.ld_unit_zero (S := S2000x1) hz2, View.ld_unit_zero (S := S128x128) hz2,
    View.ld_unit_zero (S := S128) hz1, View.ld_unit_zero (S := S1x1) hz2]

/-- and the output block holds that accumulator broadcast over its lanes. -/
theorem outC (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S2000x128 .f32) (harg8 : arg8.IsWhole) (arg9 : Memref sig .tc .vmem S2000x1 .f32) (harg9 : arg9.IsWhole) (arg10 : Memref sig .tc .vmem S1x128 .f32) (harg10 : arg10.IsWhole) (arg11 : Memref sig .tc .vmem S1x1 .f32) (harg11 : arg11.IsWhole) (hc0 : ¬cond0_0 i) (hc1 : cond0_1 i) (x0 : Vec F S2000x128 .f32) (x1 : Vec F S2000x1 .f32) (x2 : Vec F S128x128 .f32) (x3 : Vec F S128 .f32) (x4 : Vec F S128x128 .f32) (x5 : Vec F S128 .f32) (x6 : Vec F S2000x128 .f32) (x7 : Vec F S2000x1 .f32) (xs0 : Vec F S1x1 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (k0_pay1 (tilePred x0 x1 x2 x3 x4 x5) x6 x7 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero (S := S1x128) hz2, View.readCov_unit_zero (S := S1x1) _ hz2]
  simp only [View.readAt_eq_ld, harg2.read_unread, harg3.read_unread, harg4.read_unread, harg5.read_unread,
    harg6.read_unread, harg7.read_unread, harg8.read_unread, harg9.read_unread, harg11.read_unread,
    View.ld_unit_zero (S := S2000x128) hz2, View.ld_unit_zero (S := S2000x1) hz2, View.ld_unit_zero (S := S128x128) hz2,
    View.ld_unit_zero (S := S128) hz1, View.ld_unit_zero (S := S1x1) hz2]

end Cert.KernelIdeal.PoolValue

end
-- ==== Proof.Spec.lean ====
/-
  The mathematics of the pooled-context loss, as both programs compute it on the extended reals.

  Rows of a table `r` are pooled by segment: segment `s` collects the rows whose segment word equals `s`.
  The reference adapts every row first (`x = r + (r·A + bU)`), sums the adapted rows of a segment and divides by
  `max(count, 1)`. The kernel sums the raw rows and the ones (the count), scales the raw sum by
  `1 / max(count, 1)`, adapts the scaled sum once, and multiplies by the indicator of a non-empty segment.
  Both then project (`ctx·B + bI`), subtract the gathered target row, square, weight by the segment's weight and sum;
  the total is divided by the number of entries. The definitions below spell each of these out entry by entry; the
  words `0`, `1` and the entry count are kept as the float patterns the programs print.
-/
import Idealize.ShloMosaic.PureOps.Ideal
import Idealize.ShloMosaic.Lib.ValueIdx

noncomputable section

namespace Cert.Spec

open Idealize.ShloMosaic Idealize.ShloMosaic.ValueIdx

/-- The float word of zero, of one, and of the number of entries 100000 · 128. -/
abbrev zeroE : EReal := Ideal.ofBits .f32 0x00000000#32
abbrev oneE : EReal := Ideal.ofBits .f32 0x3F800000#32
abbrev scaleE : EReal := Ideal.ofBits .f32 0x4B435000#32

/-! ## One segment -/

section Segment

variable {ι : Type} (M : Finset ι) (r : ι → Fin 128 → EReal) (A B : Fin 128 → Fin 128 → EReal)
  (bU bI tgt : Fin 128 → EReal)

/-- The number of rows pooled into the segment: the ones summed onto zero. -/
def count : EReal := zeroE + ∑ _k ∈ M, oneE

/-- The raw rows of the segment summed onto zero, column `j`. -/
def rawSum (j : Fin 128) : EReal := zeroE + ∑ k ∈ M, r k j

/-- The indicator of a positive count as the kernel forms it: the comparison bit, widened, read as a number. -/
def nonEmpty (cnt : EReal) : EReal := ((((Ideal.cmp .ogt cnt zeroE).setWidth 32).toInt : ℝ) : EReal)

/-- The kernel's scale `1 / max(count, 1)`. -/
def recip (cnt : EReal) : EReal := Ideal.div oneE (max cnt oneE)

/-- The kernel's pooled context: the scaled raw sum, adapted once, masked by the indicator. -/
def ctxK (cnt : EReal) (S : Fin 128 → EReal) (j : Fin 128) : EReal :=
  nonEmpty cnt * ((S j * recip cnt + ∑ i, (S i * recip cnt) * A i j) + bU j)

/-- The reference's adapted row. -/
def adapted (k : ι) (j : Fin 128) : EReal := r k j + (∑ i, r k i * A i j + bU j)

/-- The reference's pooled context: the adapted rows summed onto zero, divided by `max(count, 1)`. -/
def ctxR (cnt : EReal) (j : Fin 128) : EReal :=
  Ideal.div (zeroE + ∑ k ∈ M, adapted r A bU k j) (max cnt oneE)

/-- The projection of a context. -/
def pred (ctx : Fin 128 → EReal) (h : Fin 128) : EReal := (∑ j, ctx j * B j h) + bI h

/-- The squared error of a context's projection against the target row. -/
def sqErr (ctx : Fin 128 → EReal) (h : Fin 128) : EReal :=
  (pred B bI ctx h - tgt h) * (pred B bI ctx h - tgt h)

end Segment

/-! ## The whole arrays -/

/-- A gather index wrapped once from below (`v < 0 ↦ v + 500000`), as both programs compute it. -/
def wrapIdx (v : BitVec 32) : BitVec 32 := Scalar.select (IntOp.cmpi .slt v 0#32) (IntOp.addi v 500000#32) v

/-- The table row a gather index names: read signed, clamped into the table. -/
def rowOf (v : BitVec 32) : Fin 500000 := ⟨min (wrapIdx v).toInt.toNat (500000 - 1), by omega⟩

section Arrays

variable (x0 : (⟨2, ![800000, 128]⟩ : Shape).Idx → EReal) (x1 : (⟨2, ![128, 128]⟩ : Shape).Idx → EReal)
  (x2 : (⟨1, ![128]⟩ : Shape).Idx → EReal) (x3 : (⟨2, ![128, 128]⟩ : Shape).Idx → EReal)
  (x4 : (⟨1, ![128]⟩ : Shape).Idx → EReal) (x5 : (⟨2, ![500000, 128]⟩ : Shape).Idx → EReal)
  (x6 : (⟨2, ![100000, 1]⟩ : Shape).Idx → EReal) (x7 : (⟨1, ![800000]⟩ : Shape).Idx → BitVec 32)
  (x8 : (⟨1, ![100000]⟩ : Shape).Idx → BitVec 32)

/-- The rows whose segment word is `s`. -/
def segRows (s : Fin 100000) : Finset (Fin 800000) :=
  Finset.univ.filter fun k : Fin 800000 => (x7 (ix1 k)).toInt = (s.val : Int)

def rowsE (k : Fin 800000) (j : Fin 128) : EReal := x0 (ix2 k j)
/-- The adapter's matrix as the products see it (the transposed weight). -/
def matA (i j : Fin 128) : EReal := x1 (ix2 j i)
def matB (i j : Fin 128) : EReal := x3 (ix2 j i)
def vecU (j : Fin 128) : EReal := x2 (ix1 j)
def vecI (j : Fin 128) : EReal := x4 (ix1 j)
def tgtE (s : Fin 100000) (h : Fin 128) : EReal := x5 (ix2 (rowOf (x8 (ix1 s))) h)
def wE (s : Fin 100000) : EReal := x6 (ix2 s (0 : Fin 1))

/-- Segment `s`'s count and raw sums. -/
def cntE (s : Fin 100000) : EReal := count (segRows x7 s)
def sumE (s : Fin 100000) (j : Fin 128) : EReal := rawSum (segRows x7 s) (rowsE x0) j

/-- Segment `s`'s weighted row loss as the kernel forms it: the weight times the row's sum of squared errors. -/
def rowLossK (s : Fin 100000) : EReal :=
  wE x6 s * ∑ h, sqErr (matB x3) (vecI x4) (tgtE x5 x8 s)
    (ctxK (matA x1) (vecU x2) (cntE x7 s) (sumE x0 x7 s)) h

/-- Entry `(s, h)` of the reference's weighted squared error. -/
def entryLossR (s : Fin 100000) (h : Fin 128) : EReal :=
  wE x6 s * sqErr (matB x3) (vecI x4) (tgtE x5 x8 s)
    (ctxR (segRows x7 s) (rowsE x0) (matA x1) (vecU x2) (cntE x7 s)) h

/-- Row `p` of tile `u` (50 tiles of 2000 rows). -/
def tileRow (u : Fin 50) (p : Fin 2000) : Fin 100000 := ⟨u.val * 2000 + p.val, by omega⟩

/-- The kernel's tile sum. -/
def tileK (u : Fin 50) : EReal := ∑ p : Fin 2000, rowLossK x0 x1 x2 x3 x4 x5 x6 x7 x8 (tileRow u p)

/-- What one core accumulates: its 25 tiles added, in order, onto zero. -/
def coreK (n : Fin 2) : EReal :=
  zeroE + ∑ u ∈ Finset.univ.filter (fun u : Fin 50 => u.val / 25 = n.val), tileK x0 x1 x2 x3 x4 x5 x6 x7 x8 u

/-- The kernel's result: the two cores' totals summed onto zero, divided by the entry count. -/
def lossK : EReal := Ideal.div (zeroE + ∑ n : Fin 2, coreK x0 x1 x2 x3 x4 x5 x6 x7 x8 n) scaleE

/-- The reference's result: every entry summed onto zero, divided by the entry count. -/
def lossR : EReal :=
  Ideal.div (zeroE + ∑ s : Fin 100000, ∑ h : Fin 128, entryLossR x0 x1 x2 x3 x4 x5 x6 x7 x8 s h) scaleE

end Arrays

end Cert.Spec

end
-- ==== Proof.Blocks.lean ====
/-
  The windows' blocks as parts of their arrays. Grid point `t` (core `t / 25`, step `t % 25`) works on tile `t`: rows
  `2000·t … 2000·t + 1999` of the four row-tiled arrays (pooled sums, counts, targets, weights); the two weight
  matrices and the two bias vectors are fetched whole.
-/
import proofs.«405659_j58514634441035_3_alg».proof.Proof.Gen.KernelIdeal.Frame
import proofs.«405659_j58514634441035_3_alg».proof.Proof.Spec
import Idealize.ShloMosaic.Lib.Pipeline.Value
import Idealize.ShloMosaic.Lib.ValueIdx

set_option maxRecDepth 16384

noncomputable section

namespace Cert.KernelIdeal.PoolValue

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The tile a grid point works on. -/
def tileOf (t : Fin cfg0.N) : Fin 50 := ⟨t.val, lt_of_lt_of_eq t.isLt N_0⟩

theorem tileOf_val (t : Fin cfg0.N) : (tileOf t).val = t.val := rfl

/-- The row-tiled windows' block index at point `t` is `(t, 0)`; -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- the whole-array windows' is zero. -/
theorem idx_whole : ∀ t : Fin cfg0.N,
    (win0_2.index t (0 : Fin 2) = 0 ∧ win0_2.index t (1 : Fin 2) = 0) ∧ win0_3.index t (0 : Fin 1) = 0
    ∧ (win0_4.index t (0 : Fin 2) = 0 ∧ win0_4.index t (1 : Fin 2) = 0) ∧ win0_5.index t (0 : Fin 1) = 0 :=
  (by decide +kernel : ∀ t : Fin grid0.N, _)

/-- The output's block index at point `t` is `(0, t / 25)`: one 128-lane slab per core. -/
theorem idx_out : ∀ t : Fin cfg0.N, win0_8.index t (0 : Fin 2) = 0 ∧ win0_8.index t (1 : Fin 2) = t.val / 25 :=
  (by decide +kernel : ∀ t : Fin grid0.N, _)

theorem blk_sums (c : Dev nD) (t : Fin cfg0.N) (p : Fin 2000) (q : Fin 128) :
    (iblk m c 0 t : Vec F S2000x128 .f32) (ix2 p q)
      = (V m c main_v2 : S100000x128.Idx → Elt F .f32) (ix2 (Cert.Spec.tileRow (tileOf t) p) q) := by
  unfold iblk
  rw [View.read_apply]
  show V m c main_v2 _ = V m c main_v2 _
  congr 1
  funext a
  apply Fin.ext
  match a with
  | ⟨0, _⟩ => show win0_0.index t 0 * 2000 + 1 * p.val = t.val * 2000 + p.val; rw [(idx_rows t).1.1]; omega
  | ⟨1, _⟩ => show win0_0.index t 1 * 128 + 1 * q.val = q.val; rw [(idx_rows t).1.2]; omega

theorem blk_cnt (c : Dev nD) (t : Fin cfg0.N) (p : Fin 2000) :
    (iblk m c 1 t : Vec F S2000x1 .f32) (ix2 p (0 : Fin 1))
      = (V m c main_v7 : S100000x1.Idx → Elt F .f32) (ix2 (Cert.Spec.tileRow (tileOf t) p) (0 : Fin 1)) := by
  unfold iblk
  rw [View.read_apply]
  show V m c main_v7 _ = V m c main_v7 _
  congr 1
  funext a
  apply Fin.ext
  match a with
  | ⟨0, _⟩ => show win0_1.index t 0 * 2000 + 1 * p.val = t.val * 2000 + p.val; rw [(idx_rows t).2.1.1]; omega
  | ⟨1, _⟩ => show win0_1.index t 1 * 1 + 1 * 0 = 0; rw [(idx_rows t).2.1.2]

theorem blk_tgt (c : Dev nD) (t : Fin cfg0.N) (p : Fin 2000) (q : Fin 128) :
    (iblk m c 6 t : Vec F S2000x128 .f32) (ix2 p q)
      = (V m c main_v14 : S100000x128.Idx → Elt F .f32) (ix2 (Cert.Spec.tileRow (tileOf t) p) q) := by
  unfold iblk
  rw [View.read_apply]
  show V m c main_v14 _ = V m c main_v14 _
  congr 1
  funext a
  apply Fin.ext
  match a with
  | ⟨0, _⟩ => show win0_6.index t 0 * 2000 + 1 * p.val = t.val * 2000 + p.val; rw [(idx_rows t).2.2.1.1]; omega
  | ⟨1, _⟩ => show win0_6.index t 1 * 128 + 1 * q.val = q.val; rw [(idx_rows t).2.2.1.2]; omega

theorem blk_w (c : Dev nD) (t : Fin cfg0.N) (p : Fin 2000) :
    (iblk m c 7 t : Vec F S2000x1 .f32) (ix2 p (0 : Fin 1))
      = (V m c main_arg6 : S100000x1.Idx → Elt F .f32) (ix2 (Cert.Spec.tileRow (tileOf t) p) (0 : Fin 1)) := by
  unfold iblk
  rw [View.read_apply]
  show V m c main_arg6 _ = V m c main_arg6 _
  congr 1
  funext a
  apply Fin.ext
  match a with
  | ⟨0, _⟩ => show win0_7.index t 0 * 2000 + 1 * p.val = t.val * 2000 + p.val; rw [(idx_rows t).2.2.2.1]; omega
  | ⟨1, _⟩ => show win0_7.index t 1 * 1 + 1 * 0 = 0; rw [(idx_rows t).2.2.2.2]

theorem blk_wuT (c : Dev nD) (t : Fin cfg0.N) (i j : Fin 128) :
    (iblk m c 2 t : Vec F S128x128 .f32) (ix2 i j) = (V m c main_v15 : S128x128.Idx → Elt F .f32) (ix2 i j) := by
  unfold iblk
  rw [View.read_apply]
  show V m c main_v15 _ = V m c main_v15 _
  congr 1
  funext a
  apply Fin.ext
  match a with
  | ⟨0, _⟩ => show win0_2.index t 0 * 128 + 1 * i.val = i.val; rw [(idx_whole t).1.1]; omega
  | ⟨1, _⟩ => show win0_2.index t 1 * 128 + 1 * j.val = j.val; rw [(idx_whole t).1.2]; omega

theorem blk_bU (c : Dev nD) (t : Fin cfg0.N) (j : Fin 128) :
    (iblk m c 3 t : Vec F S128 .f32) (ix1 j) = (V m c main_arg2 : S128.Idx → Elt F .f32) (ix1 j) := by
  unfold iblk
  rw [View.read_apply]
  show V m c main_arg2 _ = V m c main_arg2 _
  congr 1
  funext a
  apply Fin.ext
  match a with
  | ⟨0, _⟩ => show win0_3.index t 0 * 128 + 1 * j.val = j.val; rw [(idx_whole t).2.1]; omega

theorem blk_wiT (c : Dev nD) (t : Fin cfg0.N) (i j : Fin 128) :
    (iblk m c 4 t : Vec F S128x128 .f32) (ix2 i j) = (V m c main_v16 : S128x128.Idx → Elt F .f32) (ix2 i j) := by
  unfold iblk
  rw [View.read_apply]
  show V m c main_v16 _ = V m c main_v16 _
  congr 1
  funext a
  apply Fin.ext
  match a with
  | ⟨0, _⟩ => show win0_4.index t 0 * 128 + 1 * i.val = i.val; rw [(idx_whole t).2.2.1.1]; omega
  | ⟨1, _⟩ => show win0_4.index t 1 * 128 + 1 * j.val = j.val; rw [(idx_whole t).2.2.1.2]; omega

theorem blk_bI (c : Dev nD) (t : Fin cfg0.N) (j : Fin 128) :
    (iblk m c 5 t : Vec F S128 .f32) (ix1 j) = (V m c main_arg4 : S128.Idx → Elt F .f32) (ix1 j) := by
  unfold iblk
  rw [View.read_apply]
  show V m c main_arg4 _ = V m c main_arg4 _
  congr 1
  funext a
  apply Fin.ext
  match a with
  | ⟨0, _⟩ => show win0_5.index t 0 * 128 + 1 * j.val = j.val; rw [(idx_whole t).2.2.2]; omega

end Cert.KernelIdeal.PoolValue

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«405659_j58514634441035_3_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.HostReads.lean ====
/-
  The arrays the kernel's region finds, and what the lines after it compute, as values of the program's arguments.

  Before the region the program sums the raw rows by segment (a scatter-add onto zeros), counts each segment's rows (a
  scatter-add of ones), gathers each segment's target row, and transposes the two weight matrices. Read at an entry
  these are the pooled sums, the counts, the target rows and the transposed weights of the shared definitions. After
  the region it reads lane 0 of each core's 128-lane slab, adds the two onto zero and divides by the entry count.
-/
import proofs.«405659_j58514634441035_3_alg».proof.Proof.Gen.KernelIdeal.Frame
import proofs.«405659_j58514634441035_3_alg».proof.Proof.Spec
import proofs.«405659_j58514634441035_3_alg».proof.Proof.LibSegmentSumHost
import proofs.«405659_j58514634441035_3_alg».proof.Proof.LibRowGather
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Idealize.ShloMosaic Idealize.ShloMosaic.TcCoe Idealize.ShloMosaic.Tactic Idealize.ShloMosaic.ValueIdx Idealize.SL.Sem
open Cert.KernelIdeal Cert.KernelIdeal.Gen

section AnyInstance

variable {F : FTy → Type} [FloatOps F]
variable (m : (ℓ : Loc nD τ sig) → Buf (Elt F) ℓ)

/-- The segment words as the column both scatters index with. -/
abbrev wordCol (c : Dev nD) : IVec S800000x1 32 :=
  broadcastInDim S800000x1 ![0] bcast_S800000_S800000x1_0 (m ((c : Thread nD τ).loc main_arg7))

/-- The gather's index column: each target index wrapped once from below. -/
abbrev tgtCol (c : Dev nD) : IVec S100000x1 32 :=
  broadcastInDim S100000x1 ![0] bcast_S100000_S100000x1_0
    (select (cmpi .slt (m ((c : Thread nD τ).loc main_arg8)) (broadcastInDim S100000 ![] bcast_S_S100000 (constantI S_ 32 0#32)))
      (addi (m ((c : Thread nD τ).loc main_arg8)) (broadcastInDim S100000 ![] bcast_S_S100000 (constantI S_ 32 500000#32)))
      (m ((c : Thread nD τ).loc main_arg8)))

/-- Window 0's array: the raw rows summed by segment onto zeros. -/
theorem V_sums (c : Dev nD) : (V m c main_v2 : S100000x128.Idx → Elt F .f32)
    = Host.scatterAdd scatter_S100000x128_S800000x1_S800000x128_1_0_0_1
        (broadcastInDim S100000x128 ![] bcast_S_S100000x128 (constant (F := F) S_ .f32 0x00000000#32))
        (wordCol m c) (m ((c : Thread nD τ).loc main_arg0)) := by
  show StableHlo.after hostOps0 (fun b => m (c, b)) (Proc.devRef .tc main_v2) = _
  after_results

/-- Window 1's array: the ones summed by segment onto zeros, as a column. -/
theorem V_cnt (c : Dev nD) : (V m c main_v7 : S100000x1.Idx → Elt F .f32)
    = broadcastInDim S100000x1 ![0] bcast_S100000_S100000x1_0
        (Host.scatterAdd scatter_S100000_S800000x1_S800000_n_0_0_1
          (broadcastInDim S100000 ![] bcast_S_S100000 (constant (F := F) S_ .f32 0x00000000#32))
          (wordCol m c) (broadcastInDim S800000 ![] bcast_S_S800000 (constant (F := F) S_ .f32 0x3F800000#32))) := by
  show StableHlo.after hostOps0 (fun b => m (c, b)) (Proc.devRef .tc main_v7) = _
  after_results

/-- Window 6's array: the gathered target rows. -/
theorem V_tgt (c : Dev nD) : (V m c main_v14 : S100000x128.Idx → Elt F .f32)
    = Host.gather gather_S500000x128_S100000x1_S100000x128_1_0_n_n_0_1_1128 (m ((c : Thread nD τ).loc main_arg5)) (tgtCol m c) := by
  show StableHlo.after hostOps0 (fun b => m (c, b)) (Proc.devRef .tc main_v14) = _
  after_results

/-- Windows 2 and 4's arrays: the transposed weights. -/
theorem V_wuT (c : Dev nD) : (V m c main_v15 : S128x128.Idx → Elt F .f32)
    = transpose S128x128 [1, 0] (m ((c : Thread nD τ).loc main_arg1)) transposes_S128x128_S128x128_1_0 := by
  show StableHlo.after hostOps0 (fun b => m (c, b)) (Proc.devRef .tc main_v15) = _
  after_results

theorem V_wiT (c : Dev nD) : (V m c main_v16 : S128x128.Idx → Elt F .f32)
    = transpose S128x128 [1, 0] (m ((c : Thread nD τ).loc main_arg3)) transposes_S128x128_S128x128_1_0 := by
  show StableHlo.after hostOps0 (fun b => m (c, b)) (Proc.devRef .tc main_v16) = _
  after_results

end AnyInstance

/-! ## Read at an entry, over the extended reals -/

section Exact

variable (m : (ℓ : Loc nD τ sig) → Buf (Elt Ideal) ℓ)

/-- The program's nine arguments on core `c`. -/
abbrev a0 (c : Dev nD) : S800000x128.Idx → EReal := m ((c : Thread nD τ).loc main_arg0)
abbrev a1 (c : Dev nD) : S128x128.Idx → EReal := m ((c : Thread nD τ).loc main_arg1)
abbrev a2 (c : Dev nD) : S128.Idx → EReal := m ((c : Thread nD τ).loc main_arg2)
abbrev a3 (c : Dev nD) : S128x128.Idx → EReal := m ((c : Thread nD τ).loc main_arg3)
abbrev a4 (c : Dev nD) : S128.Idx → EReal := m ((c : Thread nD τ).loc main_arg4)
abbrev a5 (c : Dev nD) : S500000x128.Idx → EReal := m ((c : Thread nD τ).loc main_arg5)
abbrev a6 (c : Dev nD) : S100000x1.Idx → EReal := m ((c : Thread nD τ).loc main_arg6)
abbrev a7 (c : Dev nD) : S800000.Idx → BitVec 32 := m ((c : Thread nD τ).loc main_arg7)
abbrev a8 (c : Dev nD) : S100000.Idx → BitVec 32 := m ((c : Thread nD τ).loc main_arg8)

theorem wordCol_apply (c : Dev nD) (k : Fin 800000) : wordCol m c (SegmentSum.colIx k) = a7 m c (ix1 k) :=
  broadcastInDim_apply _ bcast_S800000_S800000x1_0 _ _ (ix1 k) (fun a => match a with
    | ⟨0, _⟩ => by show k.val = if (800000 : Nat) = 1 then 0 else k.val; rw [if_neg (by decide)])

theorem segRows_eq (c : Dev nD) (s : Fin 100000) :
    Finset.univ.filter (fun k : Fin 800000 => (wordCol m c (SegmentSum.colIx k)).toInt = (s.val : Int))
      = Cert.Spec.segRows (a7 m c) s := by
  unfold Cert.Spec.segRows
  exact Finset.filter_congr fun k _ => by rw [wordCol_apply]

/-- Entry (s, j) of the pooled raw sums. -/
theorem sums_entry (c : Dev nD) (s : Fin 100000) (j : Fin 128) :
    (V m c main_v2 : S100000x128.Idx → EReal) (ix2 s j) = Cert.Spec.sumE (a0 m c) (a7 m c) s j := by
  rw [V_sums]
  refine (SegmentSum.scatterAdd_cols_host (P := 100000) (C := 128) (n := 800000)
    scatter_S100000x128_S800000x1_S800000x128_1_0_0_1.wf _ (wordCol m c) (a0 m c) s j).trans ?_
  rw [segRows_eq]
  rfl

/-- Entry (s, 0) of the counts column. -/
theorem cnt_entry (c : Dev nD) (s : Fin 100000) :
    (V m c main_v7 : S100000x1.Idx → EReal) (ix2 s (0 : Fin 1)) = Cert.Spec.cntE (a7 m c) s := by
  rw [V_cnt]
  refine (broadcastInDim_apply _ bcast_S100000_S100000x1_0 _ _ (ix1 s) (fun a => match a with
    | ⟨0, _⟩ => by show s.val = if (100000 : Nat) = 1 then 0 else s.val; rw [if_neg (by decide)])).trans ?_
  refine (SegmentSum.scatterAdd_vec_host (P := 100000) (n := 800000)
    scatter_S100000_S800000x1_S800000_n_0_0_1.wf _ (wordCol m c) _ s).trans ?_
  rw [segRows_eq]
  rfl

/-- Entry (s, h) of the gathered target rows. -/
theorem tgt_entry (c : Dev nD) (s : Fin 100000) (h : Fin 128) :
    (V m c main_v14 : S100000x128.Idx → EReal) (ix2 s h) = Cert.Spec.tgtE (a5 m c) (a8 m c) s h := by
  rw [V_tgt]
  refine (Cert.Lib.RowGather.gather_rows_apply (N := 500000) (C := 128) (R := 100000) (by decide)
    gather_S500000x128_S100000x1_S100000x128_1_0_n_n_0_1_1128.wf (a5 m c) (tgtCol m c) s h).trans ?_
  have e : tgtCol m c (ix2 s (0 : Fin 1)) = Cert.Spec.wrapIdx (a8 m c (ix1 s)) :=
    broadcastInDim_apply _ bcast_S100000_S100000x1_0 _ _ (ix1 s) (fun a => match a with
      | ⟨0, _⟩ => by show s.val = if (100000 : Nat) = 1 then 0 else s.val; rw [if_neg (by decide)])
  unfold Cert.Spec.tgtE Cert.Spec.rowOf
  exact congrArg (fun r : Fin 500000 => a5 m c (ix2 r h))
    (Fin.ext (by show min (tgtCol m c (ix2 s (0 : Fin 1))).toInt.toNat _ = min _ _; rw [e]))

/-- Entry (i, j) of the transposed adapter weight, and of the transposed projection weight. -/
theorem wuT_entry (c : Dev nD) (i j : Fin 128) :
    (V m c main_v15 : S128x128.Idx → EReal) (ix2 i j) = Cert.Spec.matA (a1 m c) i j := by
  rw [V_wuT]
  exact transpose_apply [1, 0] _ transposes_S128x128_S128x128_1_0 (ix2 i j) (ix2 j i) (fun b => match b with
    | ⟨0, _⟩ => rfl
    | ⟨1, _⟩ => rfl)

theorem wiT_entry (c : Dev nD) (i j : Fin 128) :
    (V m c main_v16 : S128x128.Idx → EReal) (ix2 i j) = Cert.Spec.matB (a3 m c) i j := by
  rw [V_wiT]
  exact transpose_apply [1, 0] _ transposes_S128x128_S128x128_1_0 (ix2 i j) (ix2 j i) (fun b => match b with
    | ⟨0, _⟩ => rfl
    | ⟨1, _⟩ => rfl)

end Exact

end Cert.KernelIdeal.PoolValue

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.Payload.lean ====
/-
  The kernel body's arithmetic read at an entry, at the exact instance: the projected context of a tile row, the
  accumulated weighted row sums, the broadcast of the accumulator, and the reset value.
-/
import proofs.«405659_j58514634441035_3_alg».proof.Proof.Gen.KernelIdeal.Skeleton
import proofs.«405659_j58514634441035_3_alg».proof.Proof.Spec
import proofs.«405659_j58514634441035_3_alg».proof.Proof.LibRowOps
import proofs.«405659_j58514634441035_3_alg».proof.Proof.LibPlainDot
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen

/-- The kernel's product record is the plain m×k by k×n one. -/
theorem dot_eq_plain : dot_S2000x128_S128x128_S2000x128_1_0_0_1_n_n = DotDims.plain 2000 128 128 := rfl

/-- The kernel's product into the zero array, at entry (p, q): the sum over the contracted coordinate. -/
theorem matmul_entry {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ c : Fin 128, A (ix2 p c) * B (ix2 c q) :=
  Cert.Lib.PlainDot.matmul_plain_zero_apply none A B p q

/-- A vector cast to a row and broadcast over the rows reads, at (p, q), the vector at q. -/
theorem rowBias_apply {α : Type} (x : S128.Idx → α) (h1 : S128.ShapeCasts S1x128) (h2 : S1x128.Broadcasts S2000x128)
    (p : Fin 2000) (q : Fin 128) :
    broadcastTo S2000x128 (shapeCast S1x128 x h1) h2 (ix2 p q) = x (ix1 q) :=
  (broadcastTo_1b_ab_apply _ h2 p q).trans (shapeCast_a_1a_apply x h1 0 q)

/-- The indicator column: the comparison with the zero word, widened and read as a number, at row p. -/
theorem nonEmptyCol_apply (c1 : Vec Ideal S2000x1 .f32) (h : S2000x1.ShapeCasts S2000x1) (hlt : 1 < 32) (p : Fin 2000) :
    (sitofp .f32 (extui 32 (cmpf .ogt (shapeCast S2000x1 c1 h : FVec Ideal S2000x1 .f32)
        (broadcast S2000x1 (Scalar.ofBits (F := Ideal) .f32 0x00000000#32))) hlt) : FVec Ideal S2000x1 .f32) (ix2 p (0 : Fin 1))
      = Cert.Spec.nonEmpty (c1 (ix2 p (0 : Fin 1))) := by
  rw [shapeCast_self]
  rfl

/-- The scale column: one over the larger of the count and one, at row p. -/
theorem recipCol_apply (c1 : Vec Ideal S2000x1 .f32) (h : S2000x1.ShapeCasts S2000x1) (p : Fin 2000) :
    (divf (broadcast S2000x1 (Scalar.ofBits (F := Ideal) .f32 0x3F800000#32))
        (maximumf (shapeCast S2000x1 c1 h : FVec Ideal S2000x1 .f32)
          (broadcast S2000x1 (Scalar.ofBits (F := Ideal) .f32 0x3F800000#32))) : FVec Ideal S2000x1 .f32) (ix2 p (0 : Fin 1))
      = Cert.Spec.recip (c1 (ix2 p (0 : Fin 1))) := by
  rw [shapeCast_self]
  rfl

/-- The scaled raw sums: entry (p, j) is the raw sum times the row's scale. -/
theorem scaled_apply (c1 : Vec Ideal S2000x1 .f32) (s0 : Vec Ideal S2000x128 .f32) (h : S2000x1.ShapeCasts S2000x1)
    (h' : S2000x128.ShapeCasts S2000x128) (hb : S2000x1.Broadcasts S2000x128) (p : Fin 2000) (j : Fin 128) :
    (mulf (shapeCast S2000x128 s0 h' : FVec Ideal S2000x128 .f32)
        (broadcastTo S2000x128 (divf (broadcast S2000x1 (Scalar.ofBits (F := Ideal) .f32 0x3F800000#32))
          (maximumf (shapeCast S2000x1 c1 h : FVec Ideal S2000x1 .f32)
            (broadcast S2000x1 (Scalar.ofBits (F := Ideal) .f32 0x3F800000#32))) : FVec Ideal S2000x1 .f32) hb)
      : FVec Ideal S2000x128 .f32) (ix2 p j)
      = s0 (ix2 p j) * Cert.Spec.recip (c1 (ix2 p (0 : Fin 1))) := by
  refine (mulf_apply _ _ _).trans ?_
  rw [shapeCast_self]
  exact congrArg (s0 (ix2 p j) * ·)
    ((Cert.RowOps.broadcastTo_a1_ab_apply _ hb p j).trans (recipCol_apply c1 h p))

theorem pay4_apply (c1 : Vec Ideal S2000x1 .f32) (s0 : Vec Ideal S2000x128 .f32) (a2 : Vec Ideal S128x128 .f32) (u3 : Vec Ideal S128 .f32)
    (b4 : Vec Ideal S128x128 .f32) (v5 : Vec Ideal S128 .f32) (p : Fin 2000) (q : Fin 128) :
    k0_pay4 (F := Ideal) c1 s0 a2 u3 b4 v5 (ix2 p q)
      = Cert.Spec.pred (fun i j => b4 (ix2 i j)) (fun j => v5 (ix1 j))
          (Cert.Spec.ctxK (fun i j => a2 (ix2 i j)) (fun j => u3 (ix1 j)) (c1 (ix2 p (0 : Fin 1))) (fun j => s0 (ix2 p j))) q := by
  unfold k0_pay4
  refine (addf_apply _ _ _).trans ?_
  unfold Cert.Spec.pred
  refine congrArg₂ (· + ·) ?_ (rowBias_apply v5 _ _ p q)
  refine (matmul_entry _ _ p q).trans ?_
  refine Finset.sum_congr rfl fun j _ => ?_
  refine congrArg₂ (· * ·) ?_ ?_
  · -- the masked, adapted context at (p, j)
    refine (truncf_apply (φ := .f32) (ψ := .bf16) _ _ _).trans ?_
    refine (mulf_apply _ _ _).trans ?_
    unfold Cert.Spec.ctxK
    refine congrArg₂ (· * ·) ((Cert.RowOps.broadcastTo_a1_ab_apply _ _ p j).trans (nonEmptyCol_apply c1 _ _ p)) ?_
    refine (addf_apply _ _ _).trans ?_
    refine congrArg₂ (· + ·) ?_ (rowBias_apply u3 _ _ p j)
    refine (addf_apply _ _ _).trans ?_
    refine congrArg₂ (· + ·) (scaled_apply c1 s0 _ _ _ p j) ?_
    refine (matmul_entry _ _ p j).trans ?_
    refine Finset.sum_congr rfl fun i _ => ?_
    refine congrArg₂ (· * ·) ((truncf_apply (φ := .f32) (ψ := .bf16) _ _ _).trans (scaled_apply c1 s0 _ _ _ p i)) ?_
    refine (truncf_apply (φ := .f32) (ψ := .bf16) _ _ _).trans ?_
    rw [shapeCast_self]
  · refine (truncf_apply (φ := .f32) (ψ := .bf16) _ _ _).trans ?_
    rw [shapeCast_self]

/-- The sum over the first axis of an [a, 1] array of extended reals, read at its one entry: the sum over n of entry (n, 0). -/
theorem colSum_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ n : Fin a, src (ix2 n (0 : Fin 1)) := by
  refine (Ideal.multiReduction_add_single src 0x00000000#32 h hφ hacc (ix1 u)).trans ?_
  refine Finset.sum_congr rfl fun n _ => congrArg src (funext fun c => Fin.ext ?_)
  show h.liftVal (ix1 u) n.val c = _
  have hu : u.val = 0 := by omega
  match c with
  | ⟨0, _⟩ => simp [Shape.Reduces.liftVal]
  | ⟨1, _⟩ => simp [Shape.Reduces.liftVal, hu]

theorem pay1_apply (v37 : FVec Ideal S2000x128 .f32) (t6 : Vec Ideal S2000x128 .f32) (w7 : Vec Ideal S2000x1 .f32) (acc : Vec Ideal S1x1 .f32) :
    k0_pay1 (F := Ideal) v37 t6 w7 acc (ix2 (0 : Fin 1) (0 : Fin 1))
      = acc (ix2 (0 : Fin 1) (0 : Fin 1)) + ∑ p : Fin 2000, w7 (ix2 p (0 : Fin 1)) * ∑ q : Fin 128, (v37 (ix2 p q) - t6 (ix2 p q)) * (v37 (ix2 p q) - t6 (ix2 p q)) := by
  unfold k0_pay1
  refine (congrFun (shapeCast_self _ _) _).trans ?_
  refine (addf_apply _ _ _).trans ?_
  refine congrArg (acc (ix2 (0 : Fin 1) (0 : Fin 1)) + ·) ?_
  refine (Cert.RowOps.shapeCast_a_a1_apply _ _ (0 : Fin 1) (0 : Fin 1)).trans ?_
  refine (colSum_apply _ _ _ _ (0 : Fin 1)).trans ?_
  refine Finset.sum_congr rfl fun p _ => ?_
  refine (mulf_apply _ _ _).trans ?_
  refine congrArg (w7 (ix2 p (0 : Fin 1)) * ·) ?_
  refine (Cert.RowOps.shapeCast_a_a1_apply _ _ p (0 : Fin 1)).trans ?_
  refine (Cert.RowOps.laneSum_apply _ _ _ _ p).trans ?_
  refine Finset.sum_congr rfl fun q _ => ?_
  refine (mulf_apply _ _ _).trans ?_
  rw [subf_apply, shapeCast_self]

theorem pay2_apply (v56 : Vec Ideal S1x1 .f32) (l : Fin 128) :
    k0_pay2 (F := Ideal) v56 (ix2 (0 : Fin 1) l) = v56 (ix2 (0 : Fin 1) (0 : Fin 1)) := by
  unfold k0_pay2
  refine (Cert.RowOps.broadcastTo_a1_ab_apply _ _ (0 : Fin 1) l).trans ?_
  rw [shapeCast_self]

theorem pay3_apply : (k0_pay3 (F := Ideal)) (ix2 (0 : Fin 1) (0 : Fin 1)) = Cert.Spec.zeroE := by
  unfold k0_pay3
  rw [shapeCast_self]
  rfl

end Cert.Payload

end
-- ==== Proof.Accumulate.lean ====
/-
  The accumulator across the grid. Each grid point adds its tile's weighted loss to the 1×1 accumulator; a core's
  first point starts from zero. So after point `t` the accumulator holds zero plus the losses of the tiles of `t`'s
  core up to `t`, and at a core's last point the output block holds that core's total on every lane.
-/
import proofs.«405659_j58514634441035_3_alg».proof.Proof.Pieces
import proofs.«405659_j58514634441035_3_alg».proof.Proof.Blocks
import proofs.«405659_j58514634441035_3_alg».proof.Proof.HostReads
import proofs.«405659_j58514634441035_3_alg».proof.Proof.Payload

set_option maxRecDepth 16384

noncomputable section

namespace Cert.KernelIdeal.PoolValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The eight input blocks at point `t`, each at its literal type. -/
abbrev bSums (c : Dev nD) (t : Fin cfg0.N) : Vec Ideal S2000x128 .f32 := iblk m c 0 t
abbrev bCnt (c : Dev nD) (t : Fin cfg0.N) : Vec Ideal S2000x1 .f32 := iblk m c 1 t
abbrev bWuT (c : Dev nD) (t : Fin cfg0.N) : Vec Ideal S128x128 .f32 := iblk m c 2 t
abbrev bBU (c : Dev nD) (t : Fin cfg0.N) : Vec Ideal S128 .f32 := iblk m c 3 t
abbrev bWiT (c : Dev nD) (t : Fin cfg0.N) : Vec Ideal S128x128 .f32 := iblk m c 4 t
abbrev bBI (c : Dev nD) (t : Fin cfg0.N) : Vec Ideal S128 .f32 := iblk m c 5 t
abbrev bTgt (c : Dev nD) (t : Fin cfg0.N) : Vec Ideal S2000x128 .f32 := iblk m c 6 t
abbrev bW (c : Dev nD) (t : Fin cfg0.N) : Vec Ideal S2000x1 .f32 := iblk m c 7 t

/-- The blocks' entries as the shared definitions' entries. -/
theorem hB (c : Dev nD) (t : Fin cfg0.N) : (fun i j : Fin 128 => bWiT m c t (ix2 i j)) = Cert.Spec.matB (a3 m c) :=
  funext fun i => funext fun j => (blk_wiT m c t i j).trans (wiT_entry m c i j)
theorem hA (c : Dev nD) (t : Fin cfg0.N) : (fun i j : Fin 128 => bWuT m c t (ix2 i j)) = Cert.Spec.matA (a1 m c) :=
  funext fun i => funext fun j => (blk_wuT m c t i j).trans (wuT_entry m c i j)
theorem hI (c : Dev nD) (t : Fin cfg0.N) : (fun j : Fin 128 => bBI m c t (ix1 j)) = Cert.Spec.vecI (a4 m c) :=
  funext fun j => (blk_bI m c t j).trans (congrFun (V_main_arg4 m c) (ix1 j))
theorem hU (c : Dev nD) (t : Fin cfg0.N) : (fun j : Fin 128 => bBU m c t (ix1 j)) = Cert.Spec.vecU (a2 m c) :=
  funext fun j => (blk_bU m c t j).trans (congrFun (V_main_arg2 m c) (ix1 j))
theorem hC (c : Dev nD) (t : Fin cfg0.N) (p : Fin 2000) :
    bCnt m c t (ix2 p (0 : Fin 1)) = Cert.Spec.cntE (a7 m c) (Cert.Spec.tileRow (tileOf t) p) :=
  (blk_cnt m c t p).trans (cnt_entry m c _)
theorem hS (c : Dev nD) (t : Fin cfg0.N) (p : Fin 2000) :
    (fun j : Fin 128 => bSums m c t (ix2 p j)) = Cert.Spec.sumE (a0 m c) (a7 m c) (Cert.Spec.tileRow (tileOf t) p) :=
  funext fun j => (blk_sums m c t p j).trans (sums_entry m c _ j)
theorem hT (c : Dev nD) (t : Fin cfg0.N) (p : Fin 2000) (q : Fin 128) :
    bTgt m c t (ix2 p q) = Cert.Spec.tgtE (a5 m c) (a8 m c) (Cert.Spec.tileRow (tileOf t) p) q :=
  (blk_tgt m c t p q).trans (tgt_entry m c _ q)
theorem hW (c : Dev nD) (t : Fin cfg0.N) (p : Fin 2000) :
    bW m c t (ix2 p (0 : Fin 1)) = Cert.Spec.wE (a6 m c) (Cert.Spec.tileRow (tileOf t) p) :=
  (blk_w m c t p).trans (congrFun (V_main_arg6 m c) _)

/-- ONE STEP: whatever the accumulator held, the body leaves it plus the tile's loss. -/
theorem step (c : Dev nD) (t : Fin cfg0.N) (acc : Vec Ideal S1x1 .f32) :
    k0_pay1 (F := Ideal) (tilePred (bSums m c t) (bCnt m c t) (bWuT m c t) (bBU m c t) (bWiT m c t) (bBI m c t))
        (bTgt m c t) (bW m c t) acc (ix2 (0 : Fin 1) (0 : Fin 1))
      = acc (ix2 (0 : Fin 1) (0 : Fin 1)) + Cert.Spec.tileK (a0 m c) (a1 m c) (a2 m c) (a3 m c) (a4 m c) (a5 m c) (a6 m c) (a7 m c) (a8 m c) (tileOf t) := by
  rw [Cert.Payload.pay1_apply]
  refine congrArg (acc (ix2 (0 : Fin 1) (0 : Fin 1)) + ·) ?_
  unfold Cert.Spec.tileK Cert.Spec.rowLossK Cert.Spec.sqErr
  refine Finset.sum_congr rfl fun p _ => ?_
  rw [hW m c t p]
  refine congrArg (Cert.Spec.wE (a6 m c) (Cert.Spec.tileRow (tileOf t) p) * ·) ?_
  refine Finset.sum_congr rfl fun q _ => ?_
  rw [hT m c t p q]
  unfold tilePred
  rw [Cert.Payload.pay4_apply, hB m c t, hI m c t, hA m c t, hU m c t, hC m c t p, hS m c t p]

/-- The tiles of `t`'s core up to `t`. -/
def tilesUpTo (n : ℕ) : Finset (Fin 50) := Finset.univ.filter fun u : Fin 50 => u.val / 25 = n / 25 ∧ u.val ≤ n

theorem tilesUpTo_first (t : Fin cfg0.N) (h0 : t.val % 25 = 0) : tilesUpTo t.val = {tileOf t} := by
  ext u
  simp only [tilesUpTo, Finset.mem_filter, Finset.mem_univ, true_and, Finset.mem_singleton]
  constructor
  · rintro ⟨h1, h2⟩; exact Fin.ext (by rw [tileOf_val]; omega)
  · rintro rfl; rw [tileOf_val]; exact ⟨rfl, le_rfl⟩

theorem tilesUpTo_next (t : Fin cfg0.N) (h0 : ¬t.val % 25 = 0) :
    tilesUpTo t.val = insert (tileOf t) (tilesUpTo (t.val - 1)) ∧ tileOf t ∉ tilesUpTo (t.val - 1) := by
  constructor
  · ext u
    simp only [tilesUpTo, Finset.mem_filter, Finset.mem_univ, true_and, Finset.mem_insert]
    constructor
    · rintro ⟨h1, h2⟩
      by_cases hu : u.val = t.val
      · exact Or.inl (Fin.ext (by rw [tileOf_val]; exact hu))
      · exact Or.inr ⟨by omega, by omega⟩
    · rintro (rfl | ⟨h1, h2⟩)
      · rw [tileOf_val]; exact ⟨rfl, le_rfl⟩
      · exact ⟨by omega, by omega⟩
  · simp only [tilesUpTo, Finset.mem_filter, Finset.mem_univ, true_and, tileOf_val]
    omega

/-- THE ACCUMULATOR after point `n`: zero plus the losses of the tiles of its core up to `n`. -/
theorem scr_eq (c : Dev nD) : ∀ (n : ℕ) (h : n < cfg0.N),
    (outsAt0 m c n h).2 (ix2 (0 : Fin 1) (0 : Fin 1))
      = Cert.Spec.zeroE + ∑ u ∈ tilesUpTo n, Cert.Spec.tileK (a0 m c) (a1 m c) (a2 m c) (a3 m c) (a4 m c) (a5 m c) (a6 m c) (a7 m c) (a8 m c) u := by
  intro n
  induction n using Nat.strong_induction_on with
  | _ n ih =>
    intro h
    have hN : cfg0.N = 50 := N_0
    generalize ht : (⟨n, h⟩ : Fin cfg0.N) = t
    have hn : t.val = n := by rw [← ht]
    by_cases h0 : t.val % 25 = 0
    · have h1 : ¬t.val % 25 = 24 := by omega
      have e := outsAt0_A m c t h0 h1
      have e2 : (outsAt0 m c n h).2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) := by
        subst ht; exact congrArg Prod.snd e
      rw [e2, scrA]
      refine (step m c t _).trans ?_
      rw [Cert.Payload.pay3_apply, ← hn, tilesUpTo_first t h0, Finset.sum_singleton]
    · have hpos : t.val - 1 < cfg0.N := Nat.lt_of_le_of_lt (Nat.sub_le _ _) t.isLt
      have ihp := ih (t.val - 1) (by omega) hpos
      obtain ⟨hins, hnot⟩ := tilesUpTo_next t h0
      by_cases h1 : t.val % 25 = 24
      · have e := outsAt0_C m c t h0 h1
        have e2 : (outsAt0 m c n h).2 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) hpos).2 := by
          subst ht; exact congrArg Prod.snd e
        rw [e2, scrC]
        refine (step m c t _).trans ?_
        rw [ihp, ← hn, hins, Finset.sum_insert hnot, add_assoc, add_comm (Cert.Spec.tileK (a0 m c) (a1 m c) (a2 m c) (a3 m c) (a4 m c) (a5 m c) (a6 m c) (a7 m c) (a8 m c) (tileOf t))]
      · have e := outsAt0_B m c t h0 h1
        have e2 : (outsAt0 m c n h).2 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) hpos).2 := by
          subst ht; exact congrArg Prod.snd e
        rw [e2, scrB]
        refine (step m c t _).trans ?_
        rw [ihp, ← hn, hins, Finset.sum_insert hnot, add_assoc, add_comm (Cert.Spec.tileK (a0 m c) (a1 m c) (a2 m c) (a3 m c) (a4 m c) (a5 m c) (a6 m c) (a7 m c) (a8 m c) (tileOf t))]

/-- The core a point belongs to. -/
def coreOf (t : Fin cfg0.N) : Fin 2 := ⟨t.val / 25, by have := t.isLt; have : cfg0.N = 50 := N_0; omega⟩

/-- At a core's last point the tiles up to it are all of the core's tiles. -/
theorem tilesUpTo_last (t : Fin cfg0.N) (h1 : t.val % 25 = 24) :
    tilesUpTo t.val = Finset.univ.filter (fun u : Fin 50 => u.val / 25 = (coreOf t).val) := by
  unfold tilesUpTo
  refine Finset.filter_congr fun u _ => ?_
  show (u.val / 25 = t.val / 25 ∧ u.val ≤ t.val) ↔ u.val / 25 = t.val / 25
  constructor
  · exact fun h => h.1
  · intro h; exact ⟨h, by omega⟩

/-- THE OUTPUT BLOCK at a core's last point: the core's total on every lane. -/
theorem out_eq (c : Dev nD) (t : Fin cfg0.N) (h1 : t.val % 25 = 24) (l : Fin 128) :
    (outsAt0 m c t.val t.isLt).1 (ix2 (0 : Fin 1) l) = Cert.Spec.coreK (a0 m c) (a1 m c) (a2 m c) (a3 m c) (a4 m c) (a5 m c) (a6 m c) (a7 m c) (a8 m c) (coreOf t) := by
  have h0 : ¬t.val % 25 = 0 := by omega
  have hpos : t.val - 1 < cfg0.N := Nat.lt_of_le_of_lt (Nat.sub_le _ _) t.isLt
  have e := outsAt0_C m c t h0 h1
  have e1 : (outsAt0 m c t.val t.isLt).1 = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) hpos).2 :=
    congrArg Prod.fst e
  have e2 : (outsAt0 m c t.val t.isLt).2 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) hpos).2 :=
    congrArg Prod.snd e
  have e3 := scr_eq m c t.val t.isLt
  rw [e2, scrC] at e3
  rw [e1, outC, Cert.Payload.pay2_apply, e3, tilesUpTo_last t h1]
  rfl

end Cert.KernelIdeal.PoolValue

end
-- ==== Proof.Output.lean ====
/-
  The region's output array and the program's result. The output is one row of two 128-lane slabs, one per core; a
  core's last grid point writes its slab, every lane holding the core's total. The lines after the region read lane 0
  of each slab, add the two onto zero and divide by the entry count: the kernel's loss.
-/
import proofs.«405659_j58514634441035_3_alg».proof.Proof.Accumulate

set_option maxRecDepth 16384

noncomputable section

namespace Cert.KernelIdeal.PoolValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The slab a lane of the output row belongs to. -/
def slabOf (j : S1x256.Idx) : Fin 2 := ⟨(j 1).val / 128, by have h : (j 1).val < 256 := (j 1).isLt; omega⟩

/-- The output array after the run: every lane of slab `n` holds core `n`'s total. -/
def outArr (c : Dev nD) : Buf (Elt Ideal) ((c : Thread nD τ).loc main_v17) :=
  fun j => Cert.Spec.coreK (a0 m c) (a1 m c) (a2 m c) (a3 m c) (a4 m c) (a5 m c) (a6 m c) (a7 m c) (a8 m c) (slabOf j)

/-- At a core's last point the whole output block is the core's total. -/
theorem out_const (c : Dev nD) (t : Fin cfg0.N) (h1 : t.val % 25 = 24) :
    (outsAt0 m c t.val t.isLt).1 = fun _ => Cert.Spec.coreK (a0 m c) (a1 m c) (a2 m c) (a3 m c) (a4 m c) (a5 m c) (a6 m c) (a7 m c) (a8 m c) (coreOf t) := by
  funext y
  obtain ⟨p, l, rfl⟩ : ∃ (p : Fin 1) (l : Fin 128), y = ix2 p l := ⟨y 0, y 1, eq_ix2 y⟩
  obtain rfl : p = 0 := Subsingleton.elim _ _
  exact out_eq m c t h1 l

/-- What a write-back writes is its block of the output array. -/
theorem flushed_eq (c : Dev nD) (t : Fin cfg0.N) (hf : (cfg0.win 8).flush t = true) :
    (dats m 0 c).flushed 8 t = ((cfg0.win 8).blk t).view.read (Elt Ideal) (outArr m c) := by
  have h1 : t.val % 25 = 24 := (flush0_8 t).mp hf
  show (cfg0.win 8).cut (grid0.coords t) ((dats m 0 c).after 8 t) = _
  rw [after0_8, out_const m c t h1]
  funext y
  obtain ⟨p, l, rfl⟩ : ∃ (p : Fin 1) (l : Fin 128), y = ix2 p l := ⟨y 0, y 1, eq_ix2 y⟩
  rw [View.read_apply]
  show Cert.Spec.coreK (a0 m c) (a1 m c) (a2 m c) (a3 m c) (a4 m c) (a5 m c) (a6 m c) (a7 m c) (a8 m c) (coreOf t) = outArr m c _
  unfold outArr
  refine congrArg (Cert.Spec.coreK (a0 m c) (a1 m c) (a2 m c) (a3 m c) (a4 m c) (a5 m c) (a6 m c) (a7 m c) (a8 m c)) (Fin.ext ?_)
  show t.val / 25 = (win0_8.index t 1 * 128 + 1 * l.val) / 128
  rw [(idx_out t).2]
  have := l.isLt
  omega

/-- The two write-backs cover the output row. -/
theorem out_cover (c : Dev nD) (i : S1x256.Idx) :
    ∃ t : Fin cfg0.N, (cfg0.win 8).flush t = true ∧ i ∈ ((cfg0.win 8).blk t).view.set := by
  have hN : cfg0.N = 50 := N_0
  have h0 : (i 0 : Nat) < 1 := (i 0).isLt
  have h1 : (i 1 : Nat) < 256 := (i 1).isLt
  let t : Fin cfg0.N := ⟨25 * ((i 1 : Nat) / 128) + 24, by omega⟩
  have ht : t.val = 25 * ((i 1 : Nat) / 128) + 24 := rfl
  refine ⟨t, (flush0_8 t).mpr (by rw [ht]; omega), ?_⟩
  show i ∈ ((View.whole main_v17).slice (win0_8.rect t)).set
  rw [View.set_slice_whole, Rect.mem_set_unit]
  intro a
  match a with
  | ⟨0, _⟩ =>
    show win0_8.index t 0 * 1 ≤ (i 0 : Nat) ∧ (i 0 : Nat) < win0_8.index t 0 * 1 + 1
    rw [(idx_out t).1]; omega
  | ⟨1, _⟩ =>
    show win0_8.index t 1 * 128 ≤ (i 1 : Nat) ∧ (i 1 : Nat) < win0_8.index t 1 * 128 + 128
    rw [(idx_out t).2, ht]; omega

/-- So the output array ends holding the two cores' totals, slab by slab. -/
theorem out_final (c : Dev nD) : (dats m 0 c).arrAt 8 cfg0.N = outArr m c :=
  (dats m 0 c).arrAt_eq_of_cover 8 (outArr m c) (flushed_eq m c) (out_cover c)

end Cert.KernelIdeal.PoolValue

end
-- ==== Proof.KernelRun.lean ====
/-
  The kernel program's run, read: every weakly fair execution ends with the result buffer at the kernel's loss of the
  argument arrays (the two cores' totals summed onto zero, divided by the entry count) and the arguments unchanged.
-/
import proofs.«405659_j58514634441035_3_alg».proof.Proof.Output
import Idealize.ShloMosaic.Lib.StableHlo.Run
import Idealize.ShloMosaic.Lib.ValueIdxRank1
import Idealize.ShloMosaic.PureOps.Ideal.Laws

set_option maxRecDepth 16384

noncomputable section

namespace Cert.KernelIdeal.PoolValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Lane 0 of slab `n` of the output row, read through the lines after the region: the reshape to two rows, the
    slice of column 0, the reshape to a vector. -/
theorem lane0 (c : Dev nD) (X : S1x256.Idx → EReal) (n : Fin 2) :
    shapeCast S2 (extractStridedSlice S2x1 ![0, 0] (shapeCast S2x128 X shapeCasts_S1x256_S2x128) slices_S2x128_S2x1_0_0)
        shapeCasts_S2x1_S2 (ix1 n)
      = X (ix2 (0 : Fin 1) (⟨n.val * 128, by have := n.isLt; omega⟩ : Fin 256)) := by
  refine (shapeCast_apply _ shapeCasts_S2x1_S2 (ix1 n) (ix2 n (0 : Fin 1)) ?_).trans ?_
  · rw [Shape.rowMajor_val_two, Shape.rowMajor_val_one]; show n.val * 1 + 0 = n.val; omega
  refine (extractStridedSlice_apply ![0, 0] _ slices_S2x128_S2x1_0_0 (ix2 n (0 : Fin 1)) (ix2 n (0 : Fin 128)) (fun a => ?_)).trans ?_
  · match a with
    | ⟨0, _⟩ => show n.val = 0 + n.val; omega
    | ⟨1, _⟩ => rfl
  refine shapeCast_apply _ shapeCasts_S1x256_S2x128 (ix2 n (0 : Fin 128)) _ ?_
  rw [Shape.rowMajor_val_two, Shape.rowMajor_val_two]
  show 0 * 256 + n.val * 128 = n.val * 128 + 0
  omega

/-- THE RESULT: what the lines after the region leave in the result buffer is the kernel's loss. -/
theorem hostTail (c : Dev nD) :
    Pipeline.afterTail₀ cfgs (dats m) 0 (V0 m) [hostOps1] c main_v22 = fun _ => Cert.Spec.lossK (a0 m c) (a1 m c) (a2 m c) (a3 m c) (a4 m c) (a5 m c) (a6 m c) (a7 m c) (a8 m c) := by
  unfold Pipeline.afterTail₀
  show StableHlo.after hostOps1 _ (Proc.devRef .tc main_v22) = _
  after_results
  rw [Pipeline.withArrays_arr spec0 launch0.win.arr_inj c _ _ 8]
  rw [show (dats m 0 c).arrAt 8 (cfgs 0).N = outArr m c from out_final m c]
  funext i
  simp only [Host.divf, Host.reduceAdd, Ideal.hostReduceAdd_def, Ideal.hostDivf_def]
  rw [Ideal.hostReduceAdd_total reducesTo_S2_S_d0 (fun b => b.elim0)]
  unfold Cert.Spec.lossK
  refine congrArg₂ Ideal.div (congrArg (Cert.Spec.zeroE + ·) ?_) rfl
  rw [← Equiv.sum_comp (idxEquiv1 (n := 2)).symm]
  refine Finset.sum_congr rfl fun n _ => ?_
  refine (lane0 c (outArr m c) n).trans ?_
  unfold outArr
  exact congrArg (Cert.Spec.coreK (a0 m c) (a1 m c) (a2 m c) (a3 m c) (a4 m c) (a5 m c) (a6 m c) (a7 m c) (a8 m c)) (Fin.ext (by show n.val * 128 / 128 = n.val; omega))

/-- THE RUN: every weakly fair execution of the kernel's program terminates with the result buffer at the kernel's loss
    and the nine argument arrays as they were. -/
theorem kernel_run : θ_run defs (onTc (τ := τ) (main (F := Ideal))) ⟨m, fun _ => 0, ρ⟩ (fun r => ∀ c : Dev nD,
      r.2.mem ((c.tc : Thread nD τ).loc main_v22) = (fun _ => Cert.Spec.lossK (a0 m c) (a1 m c) (a2 m c) (a3 m c) (a4 m c) (a5 m c) (a6 m c) (a7 m c) (a8 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v22 (Pipeline.mem_restRefs_of main_v22 (by decide) (by decide))).trans (hostTail m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).1 3).trans (((dats m 0 c).arrAt_in 3 rfl _).trans ((A_eq m c 3).trans (V_main_arg2 m c)))),
      (((h c).2 main_arg3 (Pipeline.mem_restRefs_of main_arg3 (by decide) (by decide))).trans (W_main_arg3 m (dats m) c)),
      (((h c).1 5).trans (((dats m 0 c).arrAt_in 5 rfl _).trans ((A_eq m c 5).trans (V_main_arg4 m c)))),
      (((h c).2 main_arg5 (Pipeline.mem_restRefs_of main_arg5 (by decide) (by decide))).trans (W_main_arg5 m (dats m) c)),
      (((h c).1 7).trans (((dats m 0 c).arrAt_in 7 rfl _).trans ((A_eq m c 7).trans (V_main_arg6 m c)))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩) (run_main m ρ)

end Cert.KernelIdeal.PoolValue

end
-- ==== Proof.RefValue.lean ====
/-
  The reference's result, read entry by entry: its composed stages are the total `Cert.Spec.lossR` of the argument arrays.
-/
import proofs.«405659_j58514634441035_3_alg».proof.Proof.Gen.ReferenceIdeal.Read
import proofs.«405659_j58514634441035_3_alg».proof.Proof.Spec
import proofs.«405659_j58514634441035_3_alg».proof.Proof.LibSegmentSumHost
import proofs.«405659_j58514634441035_3_alg».proof.Proof.LibRowGather

noncomputable section

namespace Cert.RefValue

open Idealize.ShloMosaic Idealize.ShloMosaic.ValueIdx Cert.ReferenceIdeal

/-! ## Index equations: where each layout stage reads, at explicit coordinates -/

theorem lidx1_eq (k : Fin 800000) (j k' : Fin 128) : Read.lidx_main_v1 (ix2 k j) k' = ix2 k k' :=
  funext fun a => Fin.ext (by match a with | ⟨0, _⟩ => rfl | ⟨1, _⟩ => rfl)

theorem ridx1_eq (k : Fin 800000) (j k' : Fin 128) :
    Read.idx_main_v0 (Read.ridx_main_v1 (ix2 k j) k') = ix2 j k' :=
  funext fun a => Fin.ext (by match a with | ⟨0, _⟩ => rfl | ⟨1, _⟩ => rfl)

theorem idx23_eq (k : Fin 800000) (j : Fin 128) : Read.idx_main_v2 (Read.idx_main_v3 (ix2 k j)) = ix1 j :=
  funext fun a => Fin.ext (by match a with | ⟨0, _⟩ => rfl)

theorem idx7_eq (k : Fin 800000) : Read.idx_main_v7 (SegmentSum.colIx k) = ix1 k :=
  funext fun a => Fin.ext (by match a with | ⟨0, _⟩ => rfl)

theorem idx11_eq (k : Fin 800000) : Read.idx_main_v11 (SegmentSum.colIx k) = ix1 k :=
  funext fun a => Fin.ext (by match a with | ⟨0, _⟩ => rfl)

theorem idx1516_eq (s : Fin 100000) (j : Fin 128) : Read.idx_main_v15 (Read.idx_main_v16 (ix2 s j)) = ix1 s :=
  funext fun a => Fin.ext (by match a with | ⟨0, _⟩ => rfl)

theorem lidx19_eq (s : Fin 100000) (h k : Fin 128) : Read.lidx_main_v19 (ix2 s h) k = ix2 s k :=
  funext fun a => Fin.ext (by match a with | ⟨0, _⟩ => rfl | ⟨1, _⟩ => rfl)

theorem ridx19_eq (s : Fin 100000) (h k : Fin 128) :
    Read.idx_main_v18 (Read.ridx_main_v19 (ix2 s h) k) = ix2 h k :=
  funext fun a => Fin.ext (by match a with | ⟨0, _⟩ => rfl | ⟨1, _⟩ => rfl)

theorem idx2021_eq (s : Fin 100000) (h : Fin 128) : Read.idx_main_v20 (Read.idx_main_v21 (ix2 s h)) = ix1 h :=
  funext fun a => Fin.ext (by match a with | ⟨0, _⟩ => rfl)

theorem idx28_eq (s : Fin 100000) : Read.idx_main_v28 (ix2 s (0 : Fin 1)) = ix1 s :=
  funext fun a => Fin.ext (by match a with | ⟨0, _⟩ => rfl)

theorem idx32_eq (s : Fin 100000) (h : Fin 128) : Read.idx_main_v32 (ix2 s h) = ix2 s (0 : Fin 1) :=
  funext fun a => Fin.ext (by match a with | ⟨0, _⟩ => rfl | ⟨1, _⟩ => rfl)

section
variable (x0 : (⟨S800000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S500000x128, .f32⟩ : BufTy).Contents (Elt Ideal))
    (x6 : (⟨S100000x1, .f32⟩ : BufTy).Contents (Elt Ideal)) (x7 : (⟨S800000, .i32⟩ : BufTy).Contents (Elt Ideal))
    (x8 : (⟨S100000, .i32⟩ : BufTy).Contents (Elt Ideal))

/-- The adapted row: the row plus its product with the transposed weight plus the bias. -/
theorem v5_at (k : Fin 800000) (j : Fin 128) :
    Read.val_main_v5 (F := Ideal) x0 x1 x2 (ix2 k j)
      = Spec.adapted (Spec.rowsE x0) (Spec.matA x1) (Spec.vecU x2) k j := by
  rw [Read.val_main_v5_apply, Read.val_main_v4_apply, Read.val_main_v1_apply, Read.val_main_v3_apply,
    Read.val_main_v2_apply]
  simp only [Read.val_main_v0_apply, lidx1_eq, ridx1_eq, idx23_eq, Ideal.addf_def]
  rfl

/-- The segment words as a column are the segment words. -/
theorem v7_col (k : Fin 800000) : Read.val_main_v7 (F := Ideal) x7 (SegmentSum.colIx k) = x7 (ix1 k) := by
  rw [Read.val_main_v7_apply, idx7_eq]

theorem v11_col (k : Fin 800000) : Read.val_main_v11 (F := Ideal) x7 (SegmentSum.colIx k) = x7 (ix1 k) := by
  rw [Read.val_main_v11_apply, idx11_eq]

/-- The count of a segment: the ones of its rows summed onto zero. -/
theorem v12_at (s : Fin 100000) : Read.val_main_v12 (F := Ideal) x7 (ix1 s) = Spec.cntE x7 s := by
  unfold Read.val_main_v12
  refine (SegmentSum.scatterAdd_vec_host (P := 100000) (n := 800000) (φ := .f32)
    scatter_S100000_S800000x1_S800000_n_0_0_1.wf (Read.val_main_v10 (F := Ideal))
    (Read.val_main_v11 (F := Ideal) x7) (Read.val_main_v9 (F := Ideal)) s).trans ?_
  simp only [Read.val_main_v10_apply, Read.val_main_cst_1_apply, Read.val_main_v9_apply,
    Read.val_main_cst_0_apply, v11_col, Ideal.ofBits_def]
  rfl

/-- The pooled sum of a segment: its adapted rows summed onto zero. -/
theorem v8_at (s : Fin 100000) (j : Fin 128) :
    Read.val_main_v8 (F := Ideal) x0 x1 x2 x7 (ix2 s j)
      = Spec.zeroE + ∑ k ∈ Spec.segRows x7 s, Spec.adapted (Spec.rowsE x0) (Spec.matA x1) (Spec.vecU x2) k j := by
  unfold Read.val_main_v8
  refine (SegmentSum.scatterAdd_cols_host (P := 100000) (C := 128) (n := 800000) (φ := .f32)
    scatter_S100000x128_S800000x1_S800000x128_1_0_0_1.wf (Read.val_main_v6 (F := Ideal))
    (Read.val_main_v7 (F := Ideal) x7) (Read.val_main_v5 (F := Ideal) x0 x1 x2) s j).trans ?_
  simp only [Read.val_main_v6_apply, Read.val_main_cst_apply, v7_col, v5_at, Ideal.ofBits_def]
  rfl

/-- The pooled context: the pooled sum over the count raised to at least one. -/
theorem v17_at (s : Fin 100000) (j : Fin 128) :
    Read.val_main_v17 (F := Ideal) x0 x1 x2 x7 (ix2 s j)
      = Spec.ctxR (Spec.segRows x7 s) (Spec.rowsE x0) (Spec.matA x1) (Spec.vecU x2) (Spec.cntE x7 s) j := by
  rw [Read.val_main_v17_apply, Read.val_main_v16_apply, Read.val_main_v15_apply, Read.val_main_v14_apply,
    v8_at, idx1516_eq, v12_at, Read.val_main_v13_apply, Read.val_main_cst_2_apply]
  simp only [Ideal.hostDivf_def, Ideal.maximumf_def, Ideal.ofBits_def]
  rfl

/-- The projection of the pooled context. -/
theorem v22_at (s : Fin 100000) (h : Fin 128) :
    Read.val_main_v22 (F := Ideal) x0 x1 x2 x3 x4 x7 (ix2 s h)
      = Spec.pred (Spec.matB x3) (Spec.vecI x4)
          (Spec.ctxR (Spec.segRows x7 s) (Spec.rowsE x0) (Spec.matA x1) (Spec.vecU x2) (Spec.cntE x7 s)) h := by
  rw [Read.val_main_v22_apply, Read.val_main_v19_apply, Read.val_main_v21_apply, Read.val_main_v20_apply]
  simp only [Read.val_main_v18_apply, lidx19_eq, ridx19_eq, idx2021_eq, v17_at, Ideal.addf_def]
  rfl

/-- The gather's index column: the target word wrapped once from below. -/
theorem v28_at (s : Fin 100000) :
    Read.val_main_v28 (F := Ideal) x8 (ix2 s (0 : Fin 1)) = Spec.wrapIdx (x8 (ix1 s)) := by
  rw [Read.val_main_v28_apply, idx28_eq, Read.val_main_v27_apply, Read.val_main_v24_apply,
    Read.val_main_v26_apply, Read.val_main_v23_apply, Read.val_main_v25_apply, Read.val_main_c_apply,
    Read.val_main_c_3_apply]
  rfl

/-- The gathered target row. -/
theorem v29_at (s : Fin 100000) (h : Fin 128) :
    Read.val_main_v29 (F := Ideal) x5 x8 (ix2 s h) = Spec.tgtE x5 x8 s h := by
  unfold Read.val_main_v29
  refine (Cert.Lib.RowGather.gather_rows_apply (N := 500000) (C := 128) (R := 100000) (by decide)
    gather_S500000x128_S100000x1_S100000x128_1_0_n_n_0_1_1128.wf x5 (Read.val_main_v28 (F := Ideal) x8) s h).trans ?_
  unfold Spec.tgtE Spec.rowOf
  refine congrArg (fun r => x5 (ix2 r h)) (Fin.ext ?_)
  show min (Read.val_main_v28 (F := Ideal) x8 (ix2 s (0 : Fin 1))).toInt.toNat (500000 - 1) = _
  rw [v28_at]

/-- One entry of the weighted squared error. -/
theorem v33_at (s : Fin 100000) (h : Fin 128) :
    Read.val_main_v33 (F := Ideal) x0 x1 x2 x3 x4 x5 x6 x7 x8 (ix2 s h)
      = Spec.entryLossR x0 x1 x2 x3 x4 x5 x6 x7 x8 s h := by
  rw [Read.val_main_v33_apply, Read.val_main_v32_apply, Read.val_main_v31_apply, Read.val_main_v30_apply,
    v22_at, v29_at, idx32_eq]
  simp only [Ideal.mulf_def, Ideal.subf_def]
  rfl

end

theorem ref_value (x0 : (⟨S800000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S500000x128, .f32⟩ : BufTy).Contents (Elt Ideal))
    (x6 : (⟨S100000x1, .f32⟩ : BufTy).Contents (Elt Ideal)) (x7 : (⟨S800000, .i32⟩ : BufTy).Contents (Elt Ideal))
    (x8 : (⟨S100000, .i32⟩ : BufTy).Contents (Elt Ideal)) (i : S_.Idx) :
    Cert.ReferenceIdeal.Read.val_main_v35 (F := Ideal) x0 x1 x2 x3 x4 x5 x6 x7 x8 i
      = Cert.Spec.lossR x0 x1 x2 x3 x4 x5 x6 x7 x8 := by
  rw [Read.val_main_v35_apply, Read.val_main_v34_apply, Read.val_main_cst_5_apply, Read.val_main_cst_4_apply,
    sum_idx2]
  simp only [v33_at, Ideal.hostDivf_def, Ideal.ofBits_def]
  rfl

end Cert.RefValue

end
-- ==== Proof.Algebra.lean ====
/-
  The algebra of the pooled-context loss on the extended reals.

  When every input entry is a real number, each quantity of one segment is the coercion of a real expression:
  the count is the number of rows, the raw sum is the real sum, the indicator is 1 on a non-empty segment and 0 on
  an empty one, and division by max(count, 1) is multiplication by its reciprocal. Over the reals the mean of the
  adapted rows equals the adapted mean (sums exchange, and count · bU / count = bU), and both contexts vanish on an
  empty segment; so the two contexts agree entry by entry, the squared errors are real, and a real weight
  distributes over their finite sum. The 50 tiles of 2000 rows enumerate the 100000 rows once each, and the two
  cores' tile ranges partition the tiles, which carries the one-segment identity to the totals.
-/
import proofs.«405659_j58514634441035_3_alg».proof.Proof.Spec
import Mathlib.Data.EReal.Operations
import Mathlib.Data.EReal.Inv
import Mathlib.Algebra.BigOperators.Group.Finset.Basic
import Mathlib.Data.Fintype.BigOperators
import Mathlib.Logic.Equiv.Fin.Basic
import Mathlib.Tactic.Ring
import Mathlib.Tactic.FieldSimp

noncomputable section

namespace Cert.Spec

open Idealize.ShloMosaic Idealize.ShloMosaic.ValueIdx

/-! ## The float words and coercions -/

/-- The float word of zero is the number 0. -/
theorem zeroE_eq : zeroE = 0 := by simp [Ideal.ofBits, Ideal.ieee]

/-- The float word of one is the number 1: sign 0, exponent 127, significand 2^23, scaled by 2^(-23). -/
theorem oneE_eq : oneE = ((1 : ℝ) : EReal) := by
  simp [Ideal.ofBits, Ideal.ieee]
  norm_cast
  norm_num

/-- The coercion of the reals into the extended reals commutes with finite sums. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
theorem coe_max (a b : ℝ) : ((max a b : ℝ) : EReal) = max (a : EReal) (b : EReal) :=
  EReal.coe_strictMono.monotone.map_max

/-- The indicator of a positive count, at a real count. -/
theorem nonEmpty_coe (n : ℝ) : nonEmpty (n : EReal) = (((if 0 < n then 1 else 0 : ℝ)) : EReal) := by
  unfold nonEmpty Ideal.cmp
  rw [zeroE_eq]
  by_cases h : 0 < n
  · have : (0 : EReal) < (n : EReal) := by exact_mod_cast h
    simp [h, this]
  · have : ¬ (0 : EReal) < (n : EReal) := by exact_mod_cast h
    simp [h, this]

theorem max_one_ne_zero (n : ℝ) : max n 1 ≠ 0 :=
  (lt_of_lt_of_le one_pos (le_max_right n 1)).ne'

/-- The scale 1 / max(count, 1), at a real count. -/
theorem recip_coe (n : ℝ) : recip (n : EReal) = ((1 / max n 1 : ℝ) : EReal) := by
  unfold recip
  rw [oneE_eq, ← coe_max, Ideal.div_coe (max_one_ne_zero n), ← EReal.coe_mul, one_mul]

section Segment

variable {ι : Type} (M : Finset ι)

/-- The count of a segment is its number of rows. -/
theorem count_eq : count M = (((M.card : ℝ)) : EReal) := by
  unfold count
  rw [zeroE_eq, zero_add, oneE_eq, ← coe_sum, Finset.sum_const, nsmul_eq_mul, mul_one]

/-- The raw sum of real rows is the real sum. -/
theorem rawSum_coe (r' : ι → Fin 128 → ℝ) (j : Fin 128) :
    rawSum M (fun k j => ((r' k j : ℝ) : EReal)) j = ((∑ k ∈ M, r' k j : ℝ) : EReal) := by
  unfold rawSum
  rw [zeroE_eq, zero_add, ← coe_sum]

/-- The kernel's context at real data. -/
theorem ctxK_coe (A' : Fin 128 → Fin 128 → ℝ) (bU' : Fin 128 → ℝ) (n : ℝ) (S' : Fin 128 → ℝ) (j : Fin 128) :
    ctxK (fun i j => ((A' i j : ℝ) : EReal)) (fun j => ((bU' j : ℝ) : EReal)) (n : EReal)
        (fun j => ((S' j : ℝ) : EReal)) j
      = (((if 0 < n then 1 else 0 : ℝ) *
          ((S' j * (1 / max n 1) + ∑ i, (S' i * (1 / max n 1)) * A' i j) + bU' j) : ℝ) : EReal) := by
  unfold ctxK
  rw [nonEmpty_coe, recip_coe]
  simp only [← EReal.coe_mul, ← coe_sum, ← EReal.coe_add]

/-- The reference's context at real data. -/
theorem ctxR_coe (r' : ι → Fin 128 → ℝ) (A' : Fin 128 → Fin 128 → ℝ) (bU' : Fin 128 → ℝ) (n : ℝ) (j : Fin 128) :
    ctxR M (fun k j => ((r' k j : ℝ) : EReal)) (fun i j => ((A' i j : ℝ) : EReal))
        (fun j => ((bU' j : ℝ) : EReal)) (n : EReal) j
      = (((∑ k ∈ M, (r' k j + (∑ i, r' k i * A' i j + bU' j))) * (1 / max n 1) : ℝ) : EReal) := by
  unfold ctxR adapted
  rw [zeroE_eq, zero_add, oneE_eq, ← coe_max, Ideal.div_coe (max_one_ne_zero n)]
  simp only [← EReal.coe_mul, ← coe_sum, ← EReal.coe_add]

/-- Over the reals the two contexts agree: the mean of the adapted rows is the adapted mean, and both vanish on an
    empty segment. -/
theorem ctx_real_eq (r' : ι → Fin 128 → ℝ) (A' : Fin 128 → Fin 128 → ℝ) (bU' : Fin 128 → ℝ) (j : Fin 128) :
    (if 0 < (M.card : ℝ) then 1 else 0 : ℝ) *
        (((∑ k ∈ M, r' k j) * (1 / max (M.card : ℝ) 1)
          + ∑ i, ((∑ k ∈ M, r' k i) * (1 / max (M.card : ℝ) 1)) * A' i j) + bU' j)
      = (∑ k ∈ M, (r' k j + (∑ i, r' k i * A' i j + bU' j))) * (1 / max (M.card : ℝ) 1) := by
  rcases M.eq_empty_or_nonempty with h | h
  · subst h
    simp
  · have hc : 0 < (M.card : ℝ) := by exact_mod_cast h.card_pos
    have h1 : (1 : ℝ) ≤ (M.card : ℝ) := by exact_mod_cast h.card_pos
    rw [if_pos hc, one_mul, max_eq_left h1]
    have hT : ∑ k ∈ M, ∑ i, r' k i * A' i j = ∑ i, (∑ k ∈ M, r' k i) * A' i j := by
      rw [Finset.sum_comm]
      exact Finset.sum_congr rfl fun i _ => (Finset.sum_mul _ _ _).symm
    have hL : ∑ i, ((∑ k ∈ M, r' k i) * (1 / (M.card : ℝ))) * A' i j
        = (∑ i, (∑ k ∈ M, r' k i) * A' i j) * (1 / (M.card : ℝ)) := by
      rw [Finset.sum_mul]
      exact Finset.sum_congr rfl fun i _ => by ring
    rw [Finset.sum_add_distrib, Finset.sum_add_distrib, hT, hL, Finset.sum_const, nsmul_eq_mul]
    field_simp
    ring

end Segment

section RowLoss

variable {ι : Type} (M : Finset ι)

/-- The two contexts agree entry by entry at real data. -/
theorem ctx_coe_eq (r' : ι → Fin 128 → ℝ) (A' : Fin 128 → Fin 128 → ℝ) (bU' : Fin 128 → ℝ) (j : Fin 128) :
    ctxK (fun i j => ((A' i j : ℝ) : EReal)) (fun j => ((bU' j : ℝ) : EReal)) (count M)
        (rawSum M (fun k j => ((r' k j : ℝ) : EReal))) j
      = ctxR M (fun k j => ((r' k j : ℝ) : EReal)) (fun i j => ((A' i j : ℝ) : EReal))
        (fun j => ((bU' j : ℝ) : EReal)) (count M) j := by
  have hS : rawSum M (fun k j => ((r' k j : ℝ) : EReal)) = fun j => ((∑ k ∈ M, r' k j : ℝ) : EReal) :=
    funext fun j => rawSum_coe M r' j
  rw [hS, count_eq, ctxK_coe, ctxR_coe, ctx_real_eq]

/-- The two contexts agree entry by entry when every input entry is a real number. -/
theorem ctx_eq (r : ι → Fin 128 → EReal) (A : Fin 128 → Fin 128 → EReal) (bU : Fin 128 → EReal)
    (hr : ∀ k j, ∃ a : ℝ, r k j = (a : EReal)) (hA : ∀ i j, ∃ a : ℝ, A i j = (a : EReal))
    (hbU : ∀ j, ∃ a : ℝ, bU j = (a : EReal)) (j : Fin 128) :
    ctxK A bU (count M) (rawSum M r) j = ctxR M r A bU (count M) j := by
  choose r' hr' using hr
  choose A' hA' using hA
  choose bU' hbU' using hbU
  obtain rfl : r = fun k j => ((r' k j : ℝ) : EReal) := funext fun k => funext fun j => hr' k j
  obtain rfl : A = fun i j => ((A' i j : ℝ) : EReal) := funext fun i => funext fun j => hA' i j
  obtain rfl : bU = fun j => ((bU' j : ℝ) : EReal) := funext fun j => hbU' j
  exact ctx_coe_eq M r' A' bU' j

/-- The reference's context is a real number when every input entry is. -/
theorem ctxR_real (r : ι → Fin 128 → EReal) (A : Fin 128 → Fin 128 → EReal) (bU : Fin 128 → EReal)
    (hr : ∀ k j, ∃ a : ℝ, r k j = (a : EReal)) (hA : ∀ i j, ∃ a : ℝ, A i j = (a : EReal))
    (hbU : ∀ j, ∃ a : ℝ, bU j = (a : EReal)) (j : Fin 128) :
    ∃ a : ℝ, ctxR M r A bU (count M) j = (a : EReal) := by
  choose r' hr' using hr
  choose A' hA' using hA
  choose bU' hbU' using hbU
  obtain rfl : r = fun k j => ((r' k j : ℝ) : EReal) := funext fun k => funext fun j => hr' k j
  obtain rfl : A = fun i j => ((A' i j : ℝ) : EReal) := funext fun i => funext fun j => hA' i j
  obtain rfl : bU = fun j => ((bU' j : ℝ) : EReal) := funext fun j => hbU' j
  exact ⟨_, by rw [count_eq, ctxR_coe]⟩

/-- The squared error of a real context against real data is a real number. -/
theorem sqErr_real (B : Fin 128 → Fin 128 → EReal) (bI tgt ctx : Fin 128 → EReal)
    (hB : ∀ i j, ∃ a : ℝ, B i j = (a : EReal)) (hbI : ∀ j, ∃ a : ℝ, bI j = (a : EReal))
    (htgt : ∀ j, ∃ a : ℝ, tgt j = (a : EReal)) (hctx : ∀ j, ∃ a : ℝ, ctx j = (a : EReal)) (h : Fin 128) :
    ∃ a : ℝ, sqErr B bI tgt ctx h = (a : EReal) := by
  choose B' hB' using hB
  choose bI' hbI' using hbI
  choose tgt' htgt' using htgt
  choose c' hc' using hctx
  refine ⟨((∑ j, c' j * B' j h) + bI' h - tgt' h) * ((∑ j, c' j * B' j h) + bI' h - tgt' h), ?_⟩
  unfold sqErr pred
  simp only [hB', hbI', htgt', hc', ← EReal.coe_mul, ← coe_sum, ← EReal.coe_add, ← EReal.coe_sub]

/-- A real weight distributes over a finite sum of real numbers. -/
theorem mul_sum_real (w : EReal) (q : Fin 128 → EReal) (hw : ∃ a : ℝ, w = (a : EReal))
    (hq : ∀ h, ∃ a : ℝ, q h = (a : EReal)) : w * ∑ h, q h = ∑ h, w * q h := by
  obtain ⟨w', rfl⟩ := hw
  choose q' hq' using hq
  simp only [hq', ← coe_sum, ← EReal.coe_mul, Finset.mul_sum]

end RowLoss

/-- (1) one segment: the weight times the row's sum of squared errors of the kernel's context is the sum of the
    weighted squared errors of the reference's context, when every input entry is a real number. -/
theorem rowLoss_eq {ι : Type} (M : Finset ι) (r : ι → Fin 128 → EReal) (A B : Fin 128 → Fin 128 → EReal)
    (bU bI tgt : Fin 128 → EReal) (w : EReal)
    (hr : ∀ k j, ∃ a : ℝ, r k j = (a : EReal)) (hA : ∀ i j, ∃ a : ℝ, A i j = (a : EReal)) (hB : ∀ i j, ∃ a : ℝ, B i j = (a : EReal))
    (hbU : ∀ j, ∃ a : ℝ, bU j = (a : EReal)) (hbI : ∀ j, ∃ a : ℝ, bI j = (a : EReal)) (htgt : ∀ j, ∃ a : ℝ, tgt j = (a : EReal))
    (hw : ∃ a : ℝ, w = (a : EReal)) :
    w * ∑ h, sqErr B bI tgt (ctxK A bU (count M) (rawSum M r)) h
      = ∑ h, w * sqErr B bI tgt (ctxR M r A bU (count M)) h := by
  have hctx : ctxK A bU (count M) (rawSum M r) = ctxR M r A bU (count M) :=
    funext fun j => ctx_eq M r A bU hr hA hbU j
  rw [hctx]
  exact mul_sum_real w _ hw fun h =>
    sqErr_real B bI tgt _ hB hbI htgt (fun j => ctxR_real M r A bU hr hA hbU j) h

/-! ## The tiles -/

/-- (2) the 50 tiles of 2000 rows enumerate the 100000 rows once each. -/
theorem sum_tiles (f : Fin 100000 → EReal) :
    ∑ u : Fin 50, ∑ p : Fin 2000, f (tileRow u p) = ∑ s : Fin 100000, f s := by
  rw [← Fintype.sum_prod_type']
  refine Fintype.sum_equiv (finProdFinEquiv (m := 50) (n := 2000)) _ _ fun x => ?_
  refine congrArg f (Fin.ext ?_)
  show x.1.val * 2000 + x.2.val = x.2.val + 2000 * x.1.val
  omega

/-- The two cores' tile ranges partition the 50 tiles. -/
theorem sum_cores (t : Fin 50 → EReal) :
    ∑ n : Fin 2, ∑ u ∈ Finset.univ.filter (fun u : Fin 50 => u.val / 25 = n.val), t u = ∑ u : Fin 50, t u := by
  have h := Finset.sum_fiberwise (Finset.univ : Finset (Fin 50))
    (fun u : Fin 50 => (⟨u.val / 25, by omega⟩ : Fin 2)) t
  rw [← h]
  refine Finset.sum_congr rfl fun n _ => ?_
  refine Finset.sum_congr (Finset.filter_congr fun u _ => ?_) fun _ _ => rfl
  exact ⟨fun h => Fin.ext h, fun h => congrArg Fin.val h⟩

/-! ## The totals -/

/-- (3) the two totals agree when every float input entry is a real number. -/
theorem lossK_eq_lossR
    (x0 : (⟨2, ![800000, 128]⟩ : Shape).Idx → EReal) (x1 : (⟨2, ![128, 128]⟩ : Shape).Idx → EReal)
    (x2 : (⟨1, ![128]⟩ : Shape).Idx → EReal) (x3 : (⟨2, ![128, 128]⟩ : Shape).Idx → EReal)
    (x4 : (⟨1, ![128]⟩ : Shape).Idx → EReal) (x5 : (⟨2, ![500000, 128]⟩ : Shape).Idx → EReal)
    (x6 : (⟨2, ![100000, 1]⟩ : Shape).Idx → EReal) (x7 : (⟨1, ![800000]⟩ : Shape).Idx → BitVec 32)
    (x8 : (⟨1, ![100000]⟩ : Shape).Idx → BitVec 32)
    (h0 : ∀ i, ∃ a : ℝ, x0 i = (a : EReal)) (h1 : ∀ i, ∃ a : ℝ, x1 i = (a : EReal)) (h2 : ∀ i, ∃ a : ℝ, x2 i = (a : EReal))
    (h3 : ∀ i, ∃ a : ℝ, x3 i = (a : EReal)) (h4 : ∀ i, ∃ a : ℝ, x4 i = (a : EReal)) (h5 : ∀ i, ∃ a : ℝ, x5 i = (a : EReal))
    (h6 : ∀ i, ∃ a : ℝ, x6 i = (a : EReal)) :
    lossK x0 x1 x2 x3 x4 x5 x6 x7 x8 = lossR x0 x1 x2 x3 x4 x5 x6 x7 x8 := by
  unfold lossK lossR
  refine congrArg (fun t => Ideal.div (zeroE + t) scaleE) ?_
  have hcore : ∀ n : Fin 2, coreK x0 x1 x2 x3 x4 x5 x6 x7 x8 n
      = ∑ u ∈ Finset.univ.filter (fun u : Fin 50 => u.val / 25 = n.val), tileK x0 x1 x2 x3 x4 x5 x6 x7 x8 u := by
    intro n
    unfold coreK
    rw [zeroE_eq, zero_add]
  rw [Finset.sum_congr rfl fun n _ => hcore n, sum_cores]
  unfold tileK
  rw [sum_tiles (rowLossK x0 x1 x2 x3 x4 x5 x6 x7 x8)]
  refine Finset.sum_congr rfl fun s _ => ?_
  unfold rowLossK entryLossR cntE sumE
  exact rowLoss_eq (segRows x7 s) (rowsE x0) (matA x1) (matB x3) (vecU x2) (vecI x4) (tgtE x5 x8 s) (wE x6 s)
    (fun k j => h0 _) (fun i j => h1 _) (fun i j => h3 _) (fun j => h2 _) (fun j => h4 _) (fun j => h5 _) (h6 _)

end Cert.Spec

end
-- ==== Proof.Finite.lean ====
/-
  The printed precondition read back: when it evaluates to the true bit at the exact instance, every entry of
  each of the seven float arrays is a real number (neither an infinity nor the junk value).
-/
import proofs.«405659_j58514634441035_3_alg».proof.Pre_finite_inputs
import proofs.«405659_j58514634441035_3_alg».proof.Proof.Gen.Pre_finite_inputs
import Idealize.ShloMosaic.Lib.ReduceAll
import Idealize.ShloMosaic.Lib.ValueIdx
import Idealize.ShloMosaic.PureOps.Ideal
import Mathlib.Data.EReal.Basic

noncomputable section

namespace Cert.Finite

open Idealize.ShloMosaic
open Cert.Pre_finite_inputs

/-- The pattern `0x7F800000` of the 32-bit format denotes `+∞`. -/
theorem inf_bits : Ideal.ofBits .f32 0x7F800000#32 = (⊤ : EReal) := by
  simp [Ideal.ofBits, Ideal.ieee]

/-- An extended real whose absolute value `max x (-x)` is strictly below `+∞` is a real number. -/
theorem real_of_abs_lt_top (x : EReal) (h : max x (-x) < (⊤ : EReal)) : ∃ v : ℝ, x = (v : EReal) := by
  induction x using EReal.rec with
  | bot => simp at h
  | coe r => exact ⟨r, rfl⟩
  | top => simp at h

/-- Entry bit is 1 → entry is real: the comparison `|x| < +∞` coming out true forces `x` real. -/
theorem real_of_bit (x : EReal)
    (h : Ideal.cmp .olt (max x (-x)) (Ideal.ofBits .f32 0x7F800000#32) = 1#1) : ∃ v : ℝ, x = (v : EReal) := by
  rw [inf_bits] at h
  apply real_of_abs_lt_top
  by_contra hn
  simp [Ideal.cmp, hn] at h

/-- The and-reduced comparison `|x| < +∞` of an array of any shape coming out 1 forces every entry real. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf x) (broadcastInDim s ![] hb (constant (F := Ideal) S_ .f32 0x7F800000#32)))
          init hr hu ValueIdx.ix0 = 1#1) :
    ∀ i, ∃ v : ℝ, x i = (v : EReal) := by
  intro i
  -- the scalar shape has a single index, so the reduction is over every axis
  haveI : Subsingleton S_.Idx := ⟨fun a b => funext fun d => d.elim0⟩
  have hi := Host.reduce_andi_all _ init hr hu ValueIdx.ix0 h i
  exact real_of_bit (x i) hi

/-- If the printed precondition evaluates to the true bit at the exact instance, every entry of each of the seven float arrays is a real number. -/
theorem real_of_pre [Cert.Pre_finite_inputs.Facts]
    (a0 : FVec Ideal Cert.Pre_finite_inputs.S800000x128 .f32) (a1 : FVec Ideal Cert.Pre_finite_inputs.S128x128 .f32)
    (a2 : FVec Ideal Cert.Pre_finite_inputs.S128 .f32) (a3 : FVec Ideal Cert.Pre_finite_inputs.S128x128 .f32)
    (a4 : FVec Ideal Cert.Pre_finite_inputs.S128 .f32) (a5 : FVec Ideal Cert.Pre_finite_inputs.S500000x128 .f32)
    (a6 : FVec Ideal Cert.Pre_finite_inputs.S100000x1 .f32) (a7 : IVec Cert.Pre_finite_inputs.S800000 32)
    (a8 : IVec Cert.Pre_finite_inputs.S100000 32)
    (h : Cert.Pre_finite_inputs.fn (F := Ideal) a0 a1 a2 a3 a4 a5 a6 a7 a8 = (fun _ => 1#1)) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) ∧ (∀ i, ∃ v : ℝ, a5 i = (v : EReal))
      ∧ (∀ i, ∃ v : ℝ, a6 i = (v : EReal)) := by
  have h0 := congrFun h ValueIdx.ix0
  simp only [Cert.Pre_finite_inputs.fn, Cert.Pre_finite_inputs.fn_part1, andi, IntOp.andi_eq_one] at h0
  obtain ⟨⟨⟨⟨⟨⟨h0', h1'⟩, h2'⟩, h3'⟩, h4'⟩, h5'⟩, h6'⟩ := h0
  exact ⟨real_of_all a0 _ _ _ _ h0', real_of_all a1 _ _ _ _ h1', real_of_all a2 _ _ _ _ h2',
    real_of_all a3 _ _ _ _ h3', real_of_all a4 _ _ _ _ h4', real_of_all a5 _ _ _ _ h5',
    real_of_all a6 _ _ _ _ h6'⟩

end Cert.Finite

end
-- ==== Proof.lean ====
/-
  The proof of `Cert.Claim`: the three frames, the (empty) idealization ledger, and the equivalence of the idealized
  kernel program with the idealized reference over the extended reals.

  THE MATHEMATICS. Rows `r` of a table are pooled by segment: segment `s` collects the rows whose segment word is `s`.
  The reference adapts every row (`x = r + (r·A + bU)`, `A` the transposed adapter weight), sums a segment's adapted rows
  and divides by `max(count, 1)`. The kernel's program sums the RAW rows and the ones by segment, and its fused kernel
  scales the raw sum by `1 / max(count, 1)`, adapts the scaled sum once and multiplies by the indicator of a non-empty
  segment. The adapter is affine, so for a non-empty segment both are `S/n + (S/n)·A + bU` (`S` the raw sum, `n` the
  count), and for an empty one both are `0`; this needs distributivity, hence real (finite) inputs: the precondition.
  Both then project (`ctx·B + bI`), subtract the gathered target row, square and weight. The kernel multiplies a row's
  sum of squares by the row's weight, adds the rows of a tile, accumulates a core's 25 tiles in a 1×1 scratch and writes
  the core's total over a 128-lane slab at the core's last tile; the lines after the region read lane 0 of the two
  slabs, add them onto zero and divide by the entry count. The reference multiplies entrywise, sums every entry onto
  zero and divides by the same count. With real weights and squares the weight distributes over a row's sum, and the
  50 tiles of 2000 rows enumerate the 100000 rows once each: the two totals are the same extended real.

  THE PARTS. `Spec`: the shared definitions. `Algebra`: the pooled contexts agree, the weight distributes, the tiles
  enumerate the rows; so the two totals agree. `Finite`: the precondition makes every float entry real.
  `RefValue`: the reference's result, read stage by stage, is its total. `Payload`: the kernel body's arithmetic read
  at an entry. `Pieces`: what each control case of the body leaves in the accumulator and the output block.
  `Blocks`, `HostReads`: the windows' blocks as parts of the arrays the lines before the region compute.
  `Accumulate`: the accumulator after each grid point, by induction on the point. `Output`: the output row after the
  run. `KernelRun`: the kernel program's result is its total.
-/
import proofs.«405659_j58514634441035_3_alg».proof.Defs
import proofs.«405659_j58514634441035_3_alg».proof.Proof.Gen.Kernel
import proofs.«405659_j58514634441035_3_alg».proof.Proof.Gen.Kernel.Skeleton
import proofs.«405659_j58514634441035_3_alg».proof.Proof.Gen.Kernel.Launch
import proofs.«405659_j58514634441035_3_alg».proof.Proof.Gen.Kernel.Points
import proofs.«405659_j58514634441035_3_alg».proof.Proof.Gen.Kernel.Frame
import proofs.«405659_j58514634441035_3_alg».proof.Proof.Gen.KernelIdeal
import proofs.«405659_j58514634441035_3_alg».proof.Proof.Gen.KernelIdeal.Skeleton
import proofs.«405659_j58514634441035_3_alg».proof.Proof.Gen.KernelIdeal.Launch
import proofs.«405659_j58514634441035_3_alg».proof.Proof.Gen.KernelIdeal.Points
import proofs.«405659_j58514634441035_3_alg».proof.Proof.Gen.KernelIdeal.Frame
import proofs.«405659_j58514634441035_3_alg».proof.Proof.Gen.ReferenceIdeal
import proofs.«405659_j58514634441035_3_alg».proof.Proof.Gen.ReferenceIdeal.Run
import proofs.«405659_j58514634441035_3_alg».proof.Proof.Gen.ReferenceIdeal.Read
import proofs.«405659_j58514634441035_3_alg».proof.Proof.Gen.Pre_finite_inputs
import proofs.«405659_j58514634441035_3_alg».proof.Proof.KernelRun
import proofs.«405659_j58514634441035_3_alg».proof.Proof.RefValue
import proofs.«405659_j58514634441035_3_alg».proof.Proof.Algebra
import proofs.«405659_j58514634441035_3_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories agreeing on the arguments, the kernel's program ends at its total and the
    reference at its own; the precondition makes every float entry real, and then the two totals are equal. -/
theorem algebraic : Cert.algebraic_KernelIdeal_ReferenceIdeal := by
  intro m ρ m' ρ' hpre hagree
  refine ⟨_, Cert.KernelIdeal.PoolValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq]
  funext i
  rw [Cert.RefValue.ref_value, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  obtain ⟨h0, h1, h2, h3, h4, h5, h6⟩ := Cert.Finite.real_of_pre _ _ _ _ _ _ _ _ _ (hpre c)
  exact (Cert.Spec.lossK_eq_lossR _ _ _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
